-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S1000x128 : Shape := ⟨2, ![1000, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S1000x128 .f32) (main_v15 : IVec S_ 1) (main_cst_5 : FVec F S_ .f32) : IVec S_ 1 :=
  let main_v16 : FVec F S1000x128 .f32 := broadcastInDim S1000x128 ![] bcast_S_S1000x128 main_cst_5
  let main_v17 : IVec S1000x128 1 := cmpf .oeq main_arg1 main_v16
  let main_cst_6 : FVec F S_ .f32 := constant S_ .f32 0x3F800000#32
  let main_v18 : FVec F S1000x128 .f32 := broadcastInDim S1000x128 ![] bcast_S_S1000x128 main_cst_6
  let main_v19 : IVec S1000x128 1 := cmpf .oeq main_arg1 main_v18
  let main_v20 : IVec S1000x128 1 := ori main_v17 main_v19
  let main_c_7 : IVec S_ 1 := constantI S_ 1 1#1
  let main_v21 : IVec S_ 1 := (fun x v => Host.reduce IntOp.andi x v reducesTo_S1000x128_S_d0_1 h_S_) main_v20 main_c_7
  let main_v22 : IVec S_ 1 := andi main_v15 main_v21
  main_v22

def fn {F : FTy → Type} [FloatOps F] (main_arg0 : FVec F S8192x128 .f32) (main_arg1 : FVec F S1000x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 1000#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_cst_5 : FVec F S_ .f32 := constant S_ .f32 0x00000000#32
  fn_part1 (F := F) main_arg1 main_v15 main_cst_5
-- ==== Kernel.lean ====
abbrev S8192x128 : Shape := ⟨2, ![8192, 128]⟩
abbrev S1000x128 : Shape := ⟨2, ![1000, 128]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1024x128 : Shape := ⟨2, ![1024, 128]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩

abbrev nBuf : Space → Nat
  | .hbm => 63
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S1000x128, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x128, .f32⟩
  | .hbm, ⟨22, _⟩ => ⟨S8192x128, .i1⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x128, .bf16⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S_, .f32⟩
  | .hbm, ⟨43, _⟩ => ⟨S8192, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .i1⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_c : Ref sig .tc := ⟨.hbm, 26, rfl⟩
abbrev main_call1_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_c_1 : Ref sig .tc := ⟨.hbm, 34, rfl⟩
abbrev main_v5 : Ref sig .tc := ⟨.hbm, 35, rfl⟩
abbrev main_v6 : Ref sig .tc := ⟨.hbm, 36, rfl⟩
abbrev main_c_2 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_3 : Ref sig .tc := ⟨.hbm, 42, rfl⟩
abbrev main_v11 : Ref sig .tc := ⟨.hbm, 43, rfl⟩
abbrev main_v12 : Ref sig .tc := ⟨.hbm, 44, rfl⟩
abbrev main_cst_4 : Ref sig .tc := ⟨.hbm, 45, rfl⟩
abbrev main_v13 : Ref sig .tc := ⟨.hbm, 46, rfl⟩
abbrev main_v14 : Ref sig .tc := ⟨.hbm, 47, rfl⟩
abbrev main_cst_5 : Ref sig .tc := ⟨.hbm, 48, rfl⟩
abbrev main_call2_v0 : Ref sig .tc := ⟨.hbm, 49, rfl⟩
abbrev main_v15 : Ref sig .tc := ⟨.hbm, 50, rfl⟩
abbrev main_v16 : Ref sig .tc := ⟨.hbm, 51, rfl⟩
abbrev main_v17_0 : Ref sig .tc := ⟨.hbm, 52, rfl⟩
abbrev main_v17_1 : Ref sig .tc := ⟨.hbm, 53, rfl⟩
abbrev main_cst_6 : Ref sig .tc := ⟨.hbm, 54, rfl⟩
abbrev main_v18 : Ref sig .tc := ⟨.hbm, 55, rfl⟩
abbrev main_cst_7 : Ref sig .tc := ⟨.hbm, 56, rfl⟩
abbrev main_v19 : Ref sig .tc := ⟨.hbm, 57, rfl⟩
abbrev main_cst_8 : Ref sig .tc := ⟨.hbm, 58, rfl⟩
abbrev main_v20 : Ref sig .tc := ⟨.hbm, 59, rfl⟩
abbrev main_cst_9 : Ref sig .tc := ⟨.hbm, 60, rfl⟩
abbrev main_v21 : Ref sig .tc := ⟨.hbm, 61, rfl⟩
abbrev main_v22 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x128_0 : S8192.BroadcastsInDim S8192x128 (![0] : Fin 1 → Fin S8192x128.rank)
  bcast_S_S8192x128 : S_.BroadcastsInDim S8192x128 (![] : Fin 0 → Fin S8192x128.rank)
  pads_S1000x128_S1024x128_0240_000 : S1000x128.Pads (![0, 0] : Fin 2 → Nat) ![24, 0] ![0, 0] S1024x128
  bitsLt_bf16_f32 : FTy.bits .bf16 < FTy.bits .f32
  reducesTo_S1024x128_S1024_d1 : S1024x128.ReducesTo [1] S1024
  bcast_S_S1024 : S_.BroadcastsInDim S1024 (![] : Fin 0 → Fin S1024.rank)
  bcast_S1024_S1x1024_1 : S1024.BroadcastsInDim S1x1024 (![1] : Fin 1 → Fin S1x1024.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reducesTo_S8192x1_S_d0_1 : S8192x1.ReducesTo [0, 1] S_
  gather_S1000x128_S8192x1_S8192x128_1_0_n_n_0_1_1128_wf : GatherDims.WF S1000x128 S8192x1 S8192x128 [1] [0] [] [0] [] 1 ![1, 128]
  scatter_S1024_S8192x1_S8192_n_0_0_1_wf : ScatterDims.WF S1024 S8192x1 S8192 [] [0] [0] 1
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def gather_S1000x128_S8192x1_S8192x128_1_0_n_n_0_1_1128 : GatherDims S1000x128 S8192x1 S8192x128 where
  offsetDims := [1]
  collapsedSliceDims := [0]
  operandBatchingDims := []
  startIndicesBatchingDims := []
  startIndexMap := [0]
  indexVectorDim := 1
  sliceSizes := ![1, 128]
  wf := gather_S1000x128_S8192x1_S8192x128_1_0_n_n_0_1_1128_wf
def scatter_S1024_S8192x1_S8192_n_0_0_1 : ScatterDims S1024 S8192x1 S8192 where
  updateWindowDims := []
  insertedWindowDims := [0]
  scatterDimsToOperandDims := [0]
  indexVectorDim := 1
  wf := scatter_S1024_S8192x1_S8192_n_0_0_1_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S1000x128 : Shape := ⟨2, ![1000, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1000x128, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .i1⟩
  | .hbm, ⟨25, _⟩ => ⟨S8192x128, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S128x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  reducesTo_S8192x128_S8192_d1 : S8192x128.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192x1_S8192x128_0_1 : S8192x1.BroadcastsInDim S8192x128 (![0, 1] : Fin 2 → Fin S8192x128.rank)
  reducesTo_S8192x128_S_d0_1 : S8192x128.ReducesTo [0, 1] S_
  gather_S1000x128_S8192x1_S8192x128_1_0_n_n_0_1_1128_wf : GatherDims.WF S1000x128 S8192x1 S8192x128 [1] [0] [] [0] [] 1 ![1, 128]
  dot_S8192x128_S128x8192_S8192x8192_1_0_0_1_n_n_wf : DotDims.WF S8192x128 S128x8192 S8192x8192 [1] [0] [0] [1] [] []

variable [Facts₀]

def gather_S1000x128_S8192x1_S8192x128_1_0_n_n_0_1_1128 : GatherDims S1000x128 S8192x1 S8192x128 where
  offsetDims := [1]
  collapsedSliceDims := [0]
  operandBatchingDims := []
  startIndicesBatchingDims := []
  startIndexMap := [0]
  indexVectorDim := 1
  sliceSizes := ![1, 128]
  wf := gather_S1000x128_S8192x1_S8192x128_1_0_n_n_0_1_1128_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The mathematics both programs compute, stated once over families indexed by row, class and code bit.

  Inputs: probabilities `o[i,k]` (8192 rows, 128 code bits), a table of 1000 code words `cw[c,k]`, and a class label
  `tg[j]` per row.  From them:
  * `P i k`   — the hard prediction bit, 1 when `o[i,k] > 1/2` and 0 otherwise;
  * `T c k`   — the code table extended by zero rows to 1024 classes;
  * `cl j`    — the class of row `j` as a position in the extended table;
  * `B i k`   — the binary cross-entropy term of `o[i,k]` against bit `k` of row `i`'s own code word.

  For 0/1 vectors the Hamming distance is `ham = |x| + |y| - 2 x·y`.  One program takes, for each row, the least distance to
  the code word of ANY row's class (`sigmaRef`, a minimum over the 8192 rows); the other takes the least over the 1024
  positions of the extended table, where a class that labels no row carries a large constant in place of its bit count
  (`sigmaKer`).  The loss is the mean of `B i k + sigma i` over all (i,k) (`refLoss`), or, split, the mean of `B` plus
  the mean of `sigma` over the rows (`kerLoss`).
-/
import Idealize.ShloMosaic.PureOps.Ideal
import Idealize.ShloMosaic.Lib.ValueIdx

noncomputable section

open scoped BigOperators
open Idealize.ShloMosaic Idealize.ShloMosaic.ValueIdx

namespace Cert.Spec

/-! ## The float words the programs spell, read as extended reals -/

/-- 0.0 -/
def zeroW : EReal := Ideal.ofBits .f32 0x00000000#32
/-- 1.0 -/
def oneW : EReal := Ideal.ofBits .f32 0x3F800000#32
/-- 2.0 -/
def twoW : EReal := Ideal.ofBits .f32 0x40000000#32
/-- 0.5 -/
def halfW : EReal := Ideal.ofBits .f32 0x3F000000#32
/-- 1e9, what a class that labels no row carries in place of its bit count -/
def bigW : EReal := Ideal.ofBits .f32 0x4E6E6B28#32
/-- +∞, where a minimum starts -/
def topW : EReal := Ideal.ofBits .f32 0x7F800000#32
/-- 8192 · 128 = 1048576, the number of (row, bit) pairs -/
def cntW : EReal := Ideal.ofBits .f32 0x49800000#32
/-- 8192, the number of rows -/
def rowsW : EReal := Ideal.ofBits .f32 0x46000000#32

/-! ## From the arrays to families -/

section Arrays

variable (o : (⟨2, ![8192, 128]⟩ : Shape).Idx → EReal) (cw : (⟨2, ![1000, 128]⟩ : Shape).Idx → EReal)
  (tg : (⟨1, ![8192]⟩ : Shape).Idx → BitVec 32)

/-- The hard prediction of one probability: 1 when it exceeds one half, else 0 (the comparison's bit, read as a number). -/
def predOf (x : EReal) : EReal :=
  (((FloatOps.cmpf (F := Ideal) (φ := .f32) CmpFPredicate.ogt x halfW).toNat : ℝ) : EReal)

/-- The hard prediction bit of row `i`, code bit `k`. -/
def P (i : Fin 8192) (k : Fin 128) : EReal := predOf (o (ix2 i k))

/-- The code table extended by zero rows to 1024 classes. -/
def T (c : Fin 1024) (k : Fin 128) : EReal := if h : c.val < 1000 then cw (ix2 ⟨c.val, h⟩ k) else 0

/-- The class of row `j`, as a position in the extended table. -/
def cl (j : Fin 8192) : Fin 1024 := ⟨(tg (ix1 j)).toNat % 1024, Nat.mod_lt _ (by decide)⟩

/-- The binary cross-entropy of a probability `x` against a target bit `c`. -/
def bce (c x : EReal) : EReal := -(c * Ideal.log x + (oneW - c) * Ideal.log1p (-x))

/-- The cross-entropy term of row `i`, bit `k`, against the row's own code word. -/
def B (i : Fin 8192) (k : Fin 128) : EReal := bce (T cw (cl tg i) k) (o (ix2 i k))

end Arrays

/-! ## The two forms of the loss, over families -/

section Families

variable (Pf : Fin 8192 → Fin 128 → EReal) (Tf : Fin 1024 → Fin 128 → EReal) (clf : Fin 8192 → Fin 1024)

/-- The number of set prediction bits of row `i`. -/
def sp (i : Fin 8192) : EReal := ∑ k, Pf i k
/-- The number of set code bits of class `c`. -/
def sc (c : Fin 1024) : EReal := ∑ k, Tf c k
/-- The number of bits set in both. -/
def dot (i : Fin 8192) (c : Fin 1024) : EReal := ∑ k, Pf i k * Tf c k
/-- The Hamming distance of row `i`'s prediction to class `c`'s code word, for 0/1 vectors. -/
def ham (i : Fin 8192) (c : Fin 1024) : EReal := (sp Pf i + sc Tf c) - twoW * dot Pf Tf i c

/-- The least distance from row `i`'s prediction to the code word of any row's class. -/
def sigmaRef (i : Fin 8192) : EReal := Finset.univ.fold min topW (fun j : Fin 8192 => ham Pf Tf i (clf j))

/-- What class `c` carries as its bit count: the count when the class labels some row, the large constant otherwise. -/
def eff (c : Fin 1024) : EReal := if c ∈ Finset.univ.image clf then sc Tf c else bigW

/-- The least, over the extended table, of the distance computed with `eff` in place of the bit count. -/
def sigmaKer (i : Fin 8192) : EReal :=
  Finset.univ.fold min topW (fun c : Fin 1024 => (sp Pf i + eff Tf clf c) - twoW * dot Pf Tf i c)

end Families

/-- The mean over all (row, bit) pairs of `B i k + σ i`. -/
def refLoss (Bf : Fin 8192 → Fin 128 → EReal) (σ : Fin 8192 → EReal) : EReal :=
  Ideal.div (∑ i, ∑ k, (Bf i k + σ i)) cntW

/-- The mean of `B` over all pairs plus the mean of `σ` over the rows. -/
def kerLoss (Bf : Fin 8192 → Fin 128 → EReal) (σ : Fin 8192 → EReal) : EReal :=
  Ideal.div (∑ i, ∑ k, Bf i k) cntW + Ideal.div (∑ i, σ i) rowsW

end Cert.Spec

end
-- ==== Proof.Consts.lean ====
/-
  The values of the float words the two programs spell: each IEEE single-precision pattern denotes a dyadic rational (or
  +∞), computed here once from sign, exponent and fraction.
-/
import proofs.«431263_j712964571561_3_alg».proof.Proof.Spec

noncomputable section

namespace Cert.Spec

open Idealize.ShloMosaic

/-- The all-zero pattern is 0. -/
theorem zeroW_eq : zeroW = 0 := by
  unfold zeroW; simp [Ideal.ofBits, Ideal.ieee]

/-- Exponent 127, fraction 0: 1. -/
theorem oneW_eq : oneW = 1 := by
  unfold oneW; simp [Ideal.ofBits, Ideal.ieee, -EReal.coe_mul]; norm_num

/-- Exponent 128, fraction 0: 2. -/
theorem twoW_eq : twoW = ((2 : ℝ) : EReal) := by
  unfold twoW; simp [Ideal.ofBits, Ideal.ieee, -EReal.coe_mul]; norm_num

/-- Exponent 156, fraction 0x6E6B28: 2²⁹ · (1 + 7236392/2²³) = 10⁹. -/
theorem bigW_eq : bigW = ((1000000000 : ℝ) : EReal) := by
  unfold bigW; simp [Ideal.ofBits, Ideal.ieee, -EReal.coe_mul]; norm_num

/-- Exponent 255, fraction 0: +∞. -/
theorem topW_eq : topW = ⊤ := by
  unfold topW; simp [Ideal.ofBits, Ideal.ieee]

/-- Exponent 147, fraction 0: 2²⁰. -/
theorem cntW_eq : cntW = ((1048576 : ℝ) : EReal) := by
  unfold cntW; simp [Ideal.ofBits, Ideal.ieee, -EReal.coe_mul]; norm_num

/-- Exponent 140, fraction 0: 2¹³. -/
theorem rowsW_eq : rowsW = ((8192 : ℝ) : EReal) := by
  unfold rowsW; simp [Ideal.ofBits, Ideal.ieee, -EReal.coe_mul]; norm_num

/-- Exponent 126, fraction 0: 1/2. -/
theorem halfW_eq : halfW = ((1 / 2 : ℝ) : EReal) := by
  unfold halfW; simp [Ideal.ofBits, Ideal.ieee, -EReal.coe_mul]; norm_num

end Cert.Spec

end
-- ==== Proof.Algebra.lean ====
/-
  The two forms of the loss agree for 0/1 predictions and 0/1 code words.

  A sum of 128 entries that are each 0 or 1 is a real number between 0 and 128; so are the bit counts of a prediction row
  and of a code word, and the number of bits set in both.  Every distance is therefore the image of a real number, and
  comparisons of distances are comparisons in ℝ.  A class that labels no row carries 10⁹ in place of its bit count, and
  p + 10⁹ - 2·d ≥ p + s' - 2·d' whenever s' ≤ 128, d ≤ 128 and d' ≥ 0: such a class never lowers the minimum, and every
  other class is the class of some row.  Hence the minimum over the extended table is the minimum over the rows' classes.
  That minimum is at most the (real) distance to the class of row 0 and at least -256, so it is real.  Finally, for a real
  r and a positive real c, (X + r)·c = X·c + r·c whatever extended real X is, which turns the mean of B i k + σ i over all
  (row, bit) pairs into the mean of B plus the mean of σ over the rows, because 128 / 1048576 = 1 / 8192.
-/
import proofs.«431263_j712964571561_3_alg».proof.Proof.Consts
import Mathlib.Data.EReal.Operations
import Mathlib.Data.Finset.Fold
import Mathlib.Algebra.Order.BigOperators.Group.Finset

noncomputable section

open scoped BigOperators
open Idealize.ShloMosaic

namespace Cert.Spec

/-! ## Sums of real numbers inside the extended reals -/

/-- The image of a finite sum of reals is the sum of the images. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two entries that are 0 or 1 is 0 or 1. -/
theorem mul_zero_one {x y : EReal} (hx : x = 0 ∨ x = 1) (hy : y = 0 ∨ y = 1) : x * y = 0 ∨ x * y = 1 := by
  rcases hx with rfl | rfl <;> rcases hy with rfl | rfl <;> simp

/-- A sum of 128 entries, each 0 or 1, is a real number between 0 and 128: the number of ones. -/
theorem sum_zero_one (a : Fin 128 → EReal) (h : ∀ k, a k = 0 ∨ a k = 1) :
    ∃ r : ℝ, 0 ≤ r ∧ r ≤ 128 ∧ ∑ k, a k = (r : EReal) := by
  refine ⟨∑ k, (if a k = 1 then (1 : ℝ) else 0), ?_, ?_, ?_⟩
  · exact Finset.sum_nonneg fun k _ => by split_ifs <;> norm_num
  · calc ∑ k, (if a k = 1 then (1 : ℝ) else 0) ≤ ∑ _k : Fin 128, (1 : ℝ) :=
          Finset.sum_le_sum fun k _ => by split_ifs <;> norm_num
      _ = 128 := by simp
  · rw [coe_finsum]
    refine Finset.sum_congr rfl fun k _ => ?_
    rcases h k with h0 | h1
    · rw [h0]; simp
    · rw [h1]; simp

section Families

variable (Pf : Fin 8192 → Fin 128 → EReal) (Tf : Fin 1024 → Fin 128 → EReal) (clf : Fin 8192 → Fin 1024)
  (hP : ∀ i k, Pf i k = 0 ∨ Pf i k = 1) (hT : ∀ c k, Tf c k = 0 ∨ Tf c k = 1)

include hP in
/-- The bit count of a prediction row is a real number between 0 and 128. -/
theorem sp_real (i : Fin 8192) : ∃ r : ℝ, 0 ≤ r ∧ r ≤ 128 ∧ sp Pf i = (r : EReal) :=
  sum_zero_one _ (hP i)

include hT in
/-- The bit count of a code word is a real number between 0 and 128. -/
theorem sc_real (c : Fin 1024) : ∃ r : ℝ, 0 ≤ r ∧ r ≤ 128 ∧ sc Tf c = (r : EReal) :=
  sum_zero_one _ (hT c)

include hP hT in
/-- The number of bits set in both a prediction row and a code word is a real number between 0 and 128. -/
theorem dot_real (i : Fin 8192) (c : Fin 1024) : ∃ r : ℝ, 0 ≤ r ∧ r ≤ 128 ∧ dot Pf Tf i c = (r : EReal) :=
  sum_zero_one _ fun k => mul_zero_one (hP i k) (hT c k)

include hP hT in
/-- Every distance is a real number, at least -256. -/
theorem ham_real (i : Fin 8192) (c : Fin 1024) : ∃ r : ℝ, -256 ≤ r ∧ ham Pf Tf i c = (r : EReal) := by
  obtain ⟨p, hp0, _, hp⟩ := sp_real Pf hP i
  obtain ⟨s, hs0, _, hs⟩ := sc_real Tf hT c
  obtain ⟨d, _, hd1, hd⟩ := dot_real Pf Tf hP hT i c
  refine ⟨p + s - 2 * d, by linarith, ?_⟩
  rw [ham, hp, hs, hd, twoW_eq]
  norm_cast

include hP hT in
/-- With 10⁹ in place of its bit count, a class is at least as far from a row as any class with its true bit count. -/
theorem ham_le_big (i : Fin 8192) (c c' : Fin 1024) :
    ham Pf Tf i c' ≤ (sp Pf i + bigW) - twoW * dot Pf Tf i c := by
  obtain ⟨p, _, _, hp⟩ := sp_real Pf hP i
  obtain ⟨s, _, hs1, hs⟩ := sc_real Tf hT c'
  obtain ⟨d, _, hd1, hd⟩ := dot_real Pf Tf hP hT i c
  obtain ⟨d', hd0', _, hd'⟩ := dot_real Pf Tf hP hT i c'
  rw [ham, hp, hs, hd, hd', twoW_eq, bigW_eq]
  norm_cast
  linarith

end Families

/-- Over 0/1 families the minimum over the extended table with the large constant on unused classes is the minimum over the
    rows' classes. -/
theorem sigmaKer_eq_sigmaRef (Pf : Fin 8192 → Fin 128 → EReal) (Tf : Fin 1024 → Fin 128 → EReal) (clf : Fin 8192 → Fin 1024)
    (hP : ∀ i k, Pf i k = 0 ∨ Pf i k = 1) (hT : ∀ c k, Tf c k = 0 ∨ Tf c k = 1) (i : Fin 8192) :
    sigmaKer Pf Tf clf i = sigmaRef Pf Tf clf i := by
  -- at the class of a row the table's term is that row's distance
  have hterm : ∀ j : Fin 8192,
      (sp Pf i + eff Tf clf (clf j)) - twoW * dot Pf Tf i (clf j) = ham Pf Tf i (clf j) := by
    intro j
    have hm : clf j ∈ Finset.univ.image clf := Finset.mem_image_of_mem clf (Finset.mem_univ j)
    rw [eff, if_pos hm, ham]
  -- the minimum over the rows is below every row's distance
  have hle : ∀ j : Fin 8192, sigmaRef Pf Tf clf i ≤ ham Pf Tf i (clf j) := fun j =>
    (Finset.fold_min_le _).2 (Or.inr ⟨j, Finset.mem_univ j, le_refl _⟩)
  apply le_antisymm
  · -- every row's distance occurs in the table
    refine (Finset.le_fold_min _).2 ⟨by rw [topW_eq]; exact le_top, fun j _ => ?_⟩
    exact (Finset.fold_min_le _).2 (Or.inr ⟨clf j, Finset.mem_univ _, (hterm j).le⟩)
  · refine (Finset.le_fold_min _).2 ⟨by rw [topW_eq]; exact le_top, fun c _ => ?_⟩
    by_cases hc : c ∈ Finset.univ.image clf
    · -- a class of some row: its term is that row's distance
      obtain ⟨j, _, rfl⟩ := Finset.mem_image.1 hc
      rw [hterm j]
      exact hle j
    · -- a class of no row: its term is above the distance of row 0
      rw [eff, if_neg hc]
      exact (hle ⟨0, by decide⟩).trans (ham_le_big Pf Tf hP hT i c _)

/-- Over 0/1 families the least distance is a real number. -/
theorem sigmaRef_real (Pf : Fin 8192 → Fin 128 → EReal) (Tf : Fin 1024 → Fin 128 → EReal) (clf : Fin 8192 → Fin 1024)
    (hP : ∀ i k, Pf i k = 0 ∨ Pf i k = 1) (hT : ∀ c k, Tf c k = 0 ∨ Tf c k = 1) (i : Fin 8192) :
    ∃ r : ℝ, sigmaRef Pf Tf clf i = (r : EReal) := by
  -- not +∞: it is below the distance of row 0, a real
  have hne_top : sigmaRef Pf Tf clf i ≠ ⊤ := by
    obtain ⟨r, _, hr⟩ := ham_real Pf Tf hP hT i (clf ⟨0, by decide⟩)
    have h : sigmaRef Pf Tf clf i ≤ (r : EReal) :=
      (Finset.fold_min_le _).2 (Or.inr ⟨⟨0, by decide⟩, Finset.mem_univ _, hr.le⟩)
    exact ne_of_lt (lt_of_le_of_lt h (EReal.coe_lt_top r))
  -- not -∞: every distance is at least -256
  have hne_bot : sigmaRef Pf Tf clf i ≠ ⊥ := by
    have h : ((-256 : ℝ) : EReal) ≤ sigmaRef Pf Tf clf i := by
      refine (Finset.le_fold_min _).2 ⟨by rw [topW_eq]; exact le_top, fun j _ => ?_⟩
      obtain ⟨r, hr0, hr⟩ := ham_real Pf Tf hP hT i (clf j)
      rw [hr]
      exact EReal.coe_le_coe_iff.2 hr0
    exact ne_of_gt (lt_of_lt_of_le (EReal.bot_lt_coe _) h)
  exact ⟨(sigmaRef Pf Tf clf i).toReal, (EReal.coe_toReal hne_top hne_bot).symm⟩

/-- Adding a real and then scaling by a positive real distributes, at the infinities too. -/
theorem add_coe_mul_coe (X : EReal) (r : ℝ) {c : ℝ} (hc : 0 < c) :
    (X + (r : EReal)) * (c : EReal) = X * (c : EReal) + ((r * c : ℝ) : EReal) := by
  induction X with
  | bot => rw [EReal.bot_add, EReal.bot_mul_coe_of_pos hc, EReal.bot_add]
  | coe x => norm_cast; ring
  | top => rw [EReal.top_add_coe, EReal.top_mul_coe_of_pos hc, EReal.top_add_coe]

/-- For real-valued `σ` the split mean is the joint mean, whatever extended reals the `B` terms are. -/
theorem kerLoss_eq_refLoss_of_real (Bf : Fin 8192 → Fin 128 → EReal) (σ : Fin 8192 → EReal)
    (hσ : ∀ i, ∃ r : ℝ, σ i = (r : EReal)) : kerLoss Bf σ = refLoss Bf σ := by
  choose s hs using hσ
  obtain rfl : σ = fun i => (s i : EReal) := funext hs
  -- the σ part of the joint sum: each row's value counted 128 times
  have hrow : ∀ i : Fin 8192, ∑ _k : Fin 128, (s i : EReal) = ((128 * s i : ℝ) : EReal) := by
    intro i
    rw [← coe_finsum]
    simp
  have hjoint : ∑ i, ∑ k, (Bf i k + (s i : EReal))
      = (∑ i, ∑ k, Bf i k) + ((128 * ∑ i, s i : ℝ) : EReal) := by
    simp_rw [Finset.sum_add_distrib, hrow]
    rw [← coe_finsum, Finset.mul_sum]
  have hcnt : ∀ x : EReal, Ideal.div x ((1048576 : ℝ) : EReal) = x * ((1 / 1048576 : ℝ) : EReal) :=
    Ideal.div_coe (by norm_num)
  have hrows : ∀ x : EReal, Ideal.div x ((8192 : ℝ) : EReal) = x * ((1 / 8192 : ℝ) : EReal) :=
    Ideal.div_coe (by norm_num)
  rw [kerLoss, refLoss, cntW_eq, rowsW_eq, hcnt, hcnt, hrows, hjoint,
    add_coe_mul_coe _ _ (by norm_num), ← coe_finsum, ← EReal.coe_mul]
  congr 2
  ring

/-- The two losses agree over 0/1 families. -/
theorem kerLoss_eq_refLoss (Bf : Fin 8192 → Fin 128 → EReal) (Pf : Fin 8192 → Fin 128 → EReal) (Tf : Fin 1024 → Fin 128 → EReal)
    (clf : Fin 8192 → Fin 1024) (hP : ∀ i k, Pf i k = 0 ∨ Pf i k = 1) (hT : ∀ c k, Tf c k = 0 ∨ Tf c k = 1) :
    kerLoss Bf (sigmaKer Pf Tf clf) = refLoss Bf (sigmaRef Pf Tf clf) := by
  have e : sigmaKer Pf Tf clf = sigmaRef Pf Tf clf := funext fun i => sigmaKer_eq_sigmaRef Pf Tf clf hP hT i
  rw [e]
  exact kerLoss_eq_refLoss_of_real Bf _ fun i => sigmaRef_real Pf Tf clf hP hT i

end Cert.Spec

end
-- ==== Proof.PreFacts.lean ====
/-
  What the precondition says about the inputs: every class label lies in [0, 1000) and every code bit is 0 or 1.

  The precondition is one bit: the conjunction of five "for all elements" tests, each an and-fold, started at 1, of an
  array of one-bit comparison results.  A fold by "and" that ends at 1 met only 1s, so the whole bit being 1 gives, element
  by element: the signed comparisons 0 ≤ label and label < 1000, and the disjunction (code bit = 0.0) or (code bit = 1.0).
  A 32-bit word whose signed reading lies in [0, 1000) has its top bit clear, so its unsigned reading is the same number.
  An equality test of extended reals is the bit 1 exactly when the two are equal.

  Two further facts need no precondition: a hard prediction is a one-bit comparison result read as a number, hence 0 or 1;
  and the code table extended by zero rows stays 0/1 when the table is.
-/
import proofs.«431263_j712964571561_3_alg».proof.Proof.Consts
import proofs.«431263_j712964571561_3_alg».proof.Pre_finite_inputs
import proofs.«431263_j712964571561_3_alg».proof.Proof.Gen.Pre_finite_inputs
import Idealize.ShloMosaic.Lib.ReduceAll
import Idealize.ShloMosaic.Lib.StableHlo.Predicate

noncomputable section

open scoped BigOperators
open Idealize.ShloMosaic Idealize.ShloMosaic.ValueIdx

namespace Cert.Spec

/-- A comparison for equality of extended reals is the bit 1 exactly when they are equal. -/
private theorem cmp_oeq_eq_one {x y : EReal} (e : Ideal.cmp CmpFPredicate.oeq x y = 1#1) : x = y := by
  unfold Ideal.cmp at e
  exact of_decide_eq_true ((StableHlo.Predicate.ofBool_eq_one_iff _).1 e)

/-- A 32-bit word that reads, signed, as an integer in [0, 1000) reads unsigned as the same number. -/
private theorem toNat_lt_of_toInt {x : BitVec 32} (h0 : 0 ≤ x.toInt) (h1 : x.toInt < 1000) : x.toNat < 1000 := by
  have hc := BitVec.toInt_eq_toNat_cond x
  have hl := x.isLt
  split at hc <;> omega

/-- The precondition read element by element: every label lies, unsigned, below 1000, and every code bit equals the word 0.0
    or the word 1.0.  The one-bit result is a conjunction; its third and fifth conjuncts are and-folds that ended at 1, so
    each folded element is 1: for a label the pair of signed comparisons, for a code bit the "or" of two equality tests. -/
private theorem pre_elems (o : (⟨2, ![8192, 128]⟩ : Shape).Idx → EReal) (cw : (⟨2, ![1000, 128]⟩ : Shape).Idx → EReal)
    (tg : (⟨1, ![8192]⟩ : Shape).Idx → BitVec 32)
    (h : Cert.Pre_finite_inputs.fn (F := Ideal) o cw tg = fun _ => 1#1) :
    (∀ i, (tg i).toNat < 1000) ∧ (∀ i, cw i = zeroW ∨ cw i = oneW) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h123, h4⟩ := IntOp.andi_eq_one.1 h0
  obtain ⟨_, h3⟩ := IntOp.andi_eq_one.1 h123
  refine ⟨fun i => ?_, fun i => ?_⟩
  · have e := Host.reduce_andi_all _ _ _ _ _ h3 i
    obtain ⟨ea, eb⟩ := IntOp.andi_eq_one.1 e
    have ea' : (0#32 : BitVec 32).toInt ≤ (tg i).toInt := IntOp.cmpi_sge.1 ea
    have eb' : (tg i).toInt < (1000#32 : BitVec 32).toInt := IntOp.cmpi_slt.1 eb
    rw [show (0#32 : BitVec 32).toInt = 0 from by decide] at ea'
    rw [show (1000#32 : BitVec 32).toInt = 1000 from by decide] at eb'
    exact toNat_lt_of_toInt ea' eb'
  · have e := Host.reduce_andi_all _ _ _ _ _ h4 i
    rcases IntOp.ori_eq_one.1 e with ea | eb
    · exact Or.inl (cmp_oeq_eq_one ea)
    · exact Or.inr (cmp_oeq_eq_one eb)

/-- Under the precondition every class label, read unsigned, is below 1000. -/
theorem tg_range (o : (⟨2, ![8192, 128]⟩ : Shape).Idx → EReal) (cw : (⟨2, ![1000, 128]⟩ : Shape).Idx → EReal)
    (tg : (⟨1, ![8192]⟩ : Shape).Idx → BitVec 32)
    (h : Cert.Pre_finite_inputs.fn (F := Ideal) o cw tg = fun _ => 1#1) (j : Fin 8192) : (tg (ix1 j)).toNat < 1000 := by
  exact (pre_elems o cw tg h).1 (ix1 j)

/-- Under the precondition every code bit is 0 or 1. -/
theorem cw_binary (o : (⟨2, ![8192, 128]⟩ : Shape).Idx → EReal) (cw : (⟨2, ![1000, 128]⟩ : Shape).Idx → EReal)
    (tg : (⟨1, ![8192]⟩ : Shape).Idx → BitVec 32)
    (h : Cert.Pre_finite_inputs.fn (F := Ideal) o cw tg = fun _ => 1#1) (c : Fin 1000) (k : Fin 128) :
    cw (ix2 c k) = 0 ∨ cw (ix2 c k) = 1 := by
  have e := (pre_elems o cw tg h).2 (ix2 c k)
  rwa [zeroW_eq, oneW_eq] at e

/-- A hard prediction is 0 or 1. -/
theorem P_binary (o : (⟨2, ![8192, 128]⟩ : Shape).Idx → EReal) (i : Fin 8192) (k : Fin 128) : P o i k = 0 ∨ P o i k = 1 := by
  unfold P predOf
  rcases BitVec.eq_zero_or_eq_one (FloatOps.cmpf (F := Ideal) (φ := .f32) CmpFPredicate.ogt (o (ix2 i k)) halfW) with e | e
  · left; rw [e]; simp
  · right; rw [e]; simp

/-- The extended table of a 0/1 table is 0/1. -/
theorem T_binary (cw : (⟨2, ![1000, 128]⟩ : Shape).Idx → EReal) (hcw : ∀ (c : Fin 1000) (k : Fin 128), cw (ix2 c k) = 0 ∨ cw (ix2 c k) = 1)
    (c : Fin 1024) (k : Fin 128) : T cw c k = 0 ∨ T cw c k = 1 := by
  unfold T
  split
  · exact hcw _ _
  · exact Or.inl rfl

end Cert.Spec

end
-- ==== Proof.RefValue.lean ====
/-
  The reference program's result, read operation by operation, is the joint mean `refLoss` of the cross-entropy terms and
  the least Hamming distances.  With every label below 1000 the wrap of negative labels is the identity, and the gather
  reads row `tg i` of the code table, clamped into [0, 999]: row `cl tg i` of the extended table `T`.  So the gathered
  bits' row sums are `sc`, the prediction bits' row sums `sp`, the contraction of the predictions with the transposed
  gathered table `dot`, entry (i, j) of the distance matrix `ham i (cl j)`, and its row minimum started at +∞
  `sigmaRef i`.  The elementwise term at (i, k) is `B i k`; the sum over all (i, k) of `B i k + sigmaRef i`, from 0,
  divided by the number of pairs, is `refLoss`.
-/
import proofs.«431263_j712964571561_3_alg».proof.Proof.Spec
import proofs.«431263_j712964571561_3_alg».proof.Proof.Consts
import proofs.«431263_j712964571561_3_alg».proof.Proof.Gen.ReferenceIdeal.Read
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Spec

section Stages

variable (o : (⟨2, ![8192, 128]⟩ : Shape).Idx → EReal) (cw : (⟨2, ![1000, 128]⟩ : Shape).Idx → EReal)
    (tg : (⟨1, ![8192]⟩ : Shape).Idx → BitVec 32)

/-- A small word read as a signed integer is its value. -/
theorem toInt_small (x : BitVec 32) (h : x.toNat < 1000) : x.toInt = (x.toNat : Int) := by
  rw [BitVec.toInt_eq_msb_cond, BitVec.msb_eq_false_iff_two_mul_lt.mpr (by omega)]; simp

/-- A label below 1000 is not negative, so the wrap of negative labels leaves it as it is. -/
theorem label_eq (htg : ∀ j : Fin 8192, (tg (ix1 j)).toNat < 1000) (i : Fin 8192) :
    val_main_v4 (F := Ideal) tg (ix1 i) = tg (ix1 i) := by
  rw [val_main_v4_apply, val_main_v1_apply, val_main_v0_apply, val_main_c_apply]
  have h0 : IntOp.cmpi .slt (tg (ix1 i)) 0#32 = 0#1 := by
    unfold IntOp.cmpi
    have hn : ¬ (((tg (ix1 i)).toNat : Int) < 0) := by omega
    simp [BitVec.slt, toInt_small _ (htg i), hn]
  rw [h0]; exact select_zero _ _

/-- The gather at (i, k): the start index on the table's row axis is the label of row `i`, read signed and clamped into
    [0, 999], which is the label itself; the column axis is the offset axis and reads `k`. -/
theorem gather_eq (htg : ∀ j : Fin 8192, (tg (ix1 j)).toNat < 1000) (i : Fin 8192) (k : Fin 128) :
    val_main_v6 (F := Ideal) cw tg (ix2 i k) = cw (ix2 ⟨(tg (ix1 i)).toNat, htg i⟩ k) := by
  unfold val_main_v6 Host.gather
  refine congrArg cw (funext fun a => Fin.ext ?_)
  match a with
  | ⟨0, h0⟩ =>
    show gather_S1000x128_S8192x1_S8192x128_1_0_n_n_0_1_1128.start (ix2 i k) (val_main_v5 (F := Ideal) tg) 0
      + gather_S1000x128_S8192x1_S8192x128_1_0_n_n_0_1_1128.batchCoord (ix2 i k) 0
      + gather_S1000x128_S8192x1_S8192x128_1_0_n_n_0_1_1128.offCoord (ix2 i k) 0 = (tg (ix1 i)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x128_S8192x1_S8192x128_1_0_n_n_0_1_1128.startIndexMap from List.mem_singleton.mpr rfl)]
    rw [val_main_v5_apply]
    have hsi : idx_main_v5 (gather_S1000x128_S8192x1_S8192x128_1_0_n_n_0_1_1128.siIdx (ix2 i k)
        ⟨List.idxOf (0 : Fin 2) gather_S1000x128_S8192x1_S8192x128_1_0_n_n_0_1_1128.startIndexMap,
          List.idxOf_lt_length_iff.2 (List.mem_singleton.mpr rfl)⟩) = ix1 i :=
      funext fun b => Fin.ext (by match b with | ⟨0, _⟩ => rfl)
    rw [hsi, label_eq tg htg i, toInt_small _ (htg i)]
    show min (Int.toNat ((tg (ix1 i)).toNat : Int)) (1000 - 1) = (tg (ix1 i)).toNat
    have := htg i
    simp only [Int.toNat_natCast]
    omega
  | ⟨1, h1⟩ =>
    show gather_S1000x128_S8192x1_S8192x128_1_0_n_n_0_1_1128.start (ix2 i k) (val_main_v5 (F := Ideal) tg) 1
      + gather_S1000x128_S8192x1_S8192x128_1_0_n_n_0_1_1128.batchCoord (ix2 i k) 1
      + gather_S1000x128_S8192x1_S8192x128_1_0_n_n_0_1_1128.offCoord (ix2 i k) 1 = k.val
    rw [GatherDims.batchCoord_eq_zero _ _ _ List.not_mem_nil]
    unfold GatherDims.start GatherDims.offCoord
    rw [dif_neg (show ¬ (1 : Fin 2) ∈ gather_S1000x128_S8192x1_S8192x128_1_0_n_n_0_1_1128.startIndexMap by decide),
      dif_pos (show (1 : Fin 2) ∈ gather_S1000x128_S8192x1_S8192x128_1_0_n_n_0_1_1128.sKept by decide)]
    simp only [Nat.zero_add, Nat.add_zero]
    rfl

/-- The gathered row is the extended table's row at the class of the label. -/
theorem gather_T (htg : ∀ j : Fin 8192, (tg (ix1 j)).toNat < 1000) (i : Fin 8192) (k : Fin 128) :
    val_main_v6 (F := Ideal) cw tg (ix2 i k) = T cw (cl tg i) k := by
  rw [gather_eq cw tg htg i k]
  have hlt := htg i
  have hm : (tg (ix1 i)).toNat % 1024 = (tg (ix1 i)).toNat := Nat.mod_eq_of_lt (by omega)
  show _ = if h : (tg (ix1 i)).toNat % 1024 < 1000 then cw (ix2 ⟨(tg (ix1 i)).toNat % 1024, h⟩ k) else 0
  rw [dif_pos (by omega)]
  exact congrArg (fun r => cw (ix2 r k)) (Fin.ext hm.symm)

/-- The comparison's bit, read as a number, is the hard prediction. -/
theorem pred_eq (i : Fin 8192) (k : Fin 128) : val_main_v18 (F := Ideal) o (ix2 i k) = P o i k := by
  rw [val_main_v18_apply, val_main_v17_apply, val_main_v16_apply, val_main_cst_1_apply]
  rfl

/-- The row sum of the prediction bits. -/
theorem sp_eq (i : Fin 8192) : val_main_v19 (F := Ideal) o (ix1 i) = sp (P o) i := by
  rw [val_main_v19_apply, val_main_cst_2_apply]
  show zeroW + _ = _
  rw [zeroW_eq, zero_add]
  refine Finset.sum_congr rfl fun k _ => ?_
  have hi : idx_main_v19 (ix1 i) k = ix2 i k := funext fun a => by
    match a with
    | ⟨0, _⟩ => rfl
    | ⟨1, _⟩ => rfl
  rw [hi]; exact pred_eq o i k

/-- The row sum of the gathered code bits. -/
theorem sc_eq (htg : ∀ j : Fin 8192, (tg (ix1 j)).toNat < 1000) (j : Fin 8192) :
    val_main_v20 (F := Ideal) cw tg (ix1 j) = sc (T cw) (cl tg j) := by
  rw [val_main_v20_apply, val_main_cst_3_apply]
  show zeroW + _ = _
  rw [zeroW_eq, zero_add]
  refine Finset.sum_congr rfl fun k _ => ?_
  have hi : idx_main_v20 (ix1 j) k = ix2 j k := funext fun a => by
    match a with
    | ⟨0, _⟩ => rfl
    | ⟨1, _⟩ => rfl
  rw [hi]; exact gather_T cw tg htg j k

/-- The contraction of the prediction bits with the transposed gathered code bits. -/
theorem dot_eq (htg : ∀ j : Fin 8192, (tg (ix1 j)).toNat < 1000) (i j : Fin 8192) :
    val_main_v27 (F := Ideal) o cw tg (ix2 i j) = dot (P o) (T cw) i (cl tg j) := by
  rw [val_main_v27_apply]
  refine Finset.sum_congr rfl fun k _ => ?_
  have hl : lidx_main_v27 (ix2 i j) k = ix2 i k := funext fun a => by
    match a with
    | ⟨0, _⟩ => rfl
    | ⟨1, _⟩ => rfl
  have hr : idx_main_v26 (ridx_main_v27 (ix2 i j) k) = ix2 j k := funext fun a => by
    match a with
    | ⟨0, _⟩ => rfl
    | ⟨1, _⟩ => rfl
  rw [val_main_v26_apply, hl, hr, pred_eq o i k, gather_T cw tg htg j k]

/-- The distance matrix's entry is the Hamming distance. -/
theorem ham_eq (htg : ∀ j : Fin 8192, (tg (ix1 j)).toNat < 1000) (i j : Fin 8192) :
    val_main_v30 (F := Ideal) o cw tg (ix2 i j) = ham (P o) (T cw) i (cl tg j) := by
  rw [val_main_v30_apply, val_main_v25_apply, val_main_v29_apply, val_main_v23_apply, val_main_v21_apply,
    val_main_v24_apply, val_main_v22_apply, val_main_v28_apply, val_main_cst_4_apply]
  have h1 : idx_main_v21 (idx_main_v23 (ix2 i j)) = ix1 i := funext fun a => by
    match a with
    | ⟨0, _⟩ => rfl
  have h2 : idx_main_v22 (idx_main_v24 (ix2 i j)) = ix1 j := funext fun a => by
    match a with
    | ⟨0, _⟩ => rfl
  rw [h1, h2, sp_eq o i, sc_eq cw tg htg j, dot_eq o cw tg htg i j]
  rfl

/-- The least distance over the rows: the one-axis minimum, started at +∞, runs over the second coordinate. -/
theorem min_eq (htg : ∀ j : Fin 8192, (tg (ix1 j)).toNat < 1000) (i : Fin 8192) :
    val_main_v31 (F := Ideal) o cw tg (ix1 i) = sigmaRef (P o) (T cw) (cl tg) i := by
  have hR : S8192x8192.Reduces [1] S8192 := by decide
  unfold val_main_v31
  rw [Host.reduce_eq_fold_single FloatOps.minimumf _ _ Facts₀.reducesTo_S8192x8192_S8192_d1 hR Facts₀.h_S_,
    val_main_cst_5_apply]
  show Finset.fold min topW (val_main_v30 (F := Ideal) o cw tg ∘ hR.lift (ix1 i)) (Finset.univ : Finset (Fin 8192))
    = Finset.fold min topW (fun j : Fin 8192 => ham (P o) (T cw) i (cl tg j)) Finset.univ
  refine Finset.fold_congr fun j _ => ?_
  have hl : hR.lift (ix1 i) j = ix2 i j := funext fun a => Fin.ext (by
    match a with
    | ⟨0, _⟩ => rfl
    | ⟨1, _⟩ => rfl)
  show val_main_v30 (F := Ideal) o cw tg (hR.lift (ix1 i) j) = _
  rw [hl]; exact ham_eq o cw tg htg i j

/-- The cross-entropy term. -/
theorem bce_eq (htg : ∀ j : Fin 8192, (tg (ix1 j)).toNat < 1000) (i : Fin 8192) (k : Fin 128) :
    val_main_v15 (F := Ideal) o cw tg (ix2 i k) = B o cw tg i k := by
  rw [val_main_v15_apply, val_main_v14_apply, val_main_v8_apply, val_main_v13_apply, val_main_v7_apply,
    val_main_v10_apply, val_main_v12_apply, val_main_v11_apply, val_main_v9_apply, val_main_cst_apply,
    gather_T cw tg htg i k]
  rfl

/-- One summand of the total: the cross-entropy term plus the row's least distance. -/
theorem summand_eq (htg : ∀ j : Fin 8192, (tg (ix1 j)).toNat < 1000) (i : Fin 8192) (k : Fin 128) :
    val_main_v34 (F := Ideal) o cw tg (ix2 i k) = B o cw tg i k + sigmaRef (P o) (T cw) (cl tg) i := by
  rw [val_main_v34_apply, val_main_v33_apply, val_main_v32_apply, bce_eq o cw tg htg i k]
  have h1 : idx_main_v32 (idx_main_v33 (ix2 i k)) = ix1 i := funext fun a => by
    match a with
    | ⟨0, _⟩ => rfl
  rw [h1, min_eq o cw tg htg i]
  rfl

end Stages

/-- With every label in range, the reference's result is the joint mean. -/
theorem ref_value (o : (⟨2, ![8192, 128]⟩ : Shape).Idx → EReal) (cw : (⟨2, ![1000, 128]⟩ : Shape).Idx → EReal)
    (tg : (⟨1, ![8192]⟩ : Shape).Idx → BitVec 32) (htg : ∀ j : Fin 8192, (tg (ix1 j)).toNat < 1000) :
    Cert.ReferenceIdeal.Read.val_main_v36 (F := Ideal) o cw tg
      = fun _ => refLoss (B o cw tg) (sigmaRef (P o) (T cw) (cl tg)) := by
  funext z
  rw [val_main_v36_apply, val_main_v35_apply, val_main_cst_6_apply, val_main_cst_7_apply]
  show Ideal.div (zeroW + _) cntW = _
  rw [zeroW_eq, zero_add, sum_idx2]
  unfold refLoss
  refine congrArg (fun s => Ideal.div s cntW) ?_
  exact Finset.sum_congr rfl fun i _ => Finset.sum_congr rfl fun k _ => summand_eq o cw tg htg i k

end Cert.ReferenceIdeal.RefValue

end
-- ==== Proof.KerArgs.lean ====
/-
  The kernel program's three argument arrays at the ideal instance, named: probabilities, code table, labels.
-/
import proofs.«431263_j712964571561_3_alg».proof.Proof.Spec
import proofs.«431263_j712964571561_3_alg».proof.Proof.Consts
import proofs.«431263_j712964571561_3_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (m : (ℓ : Loc nD τ sig) → Buf (Elt Ideal) ℓ)

/-- The probabilities as launched on core `c`. -/
abbrev oOf (c : Dev nD) : (⟨2, ![8192, 128]⟩ : Shape).Idx → EReal := m ((c : Thread nD τ).loc main_arg0)
/-- The code table as launched. -/
abbrev cwOf (c : Dev nD) : (⟨2, ![1000, 128]⟩ : Shape).Idx → EReal := m ((c : Thread nD τ).loc main_arg1)
/-- The labels as launched. -/
abbrev tgOf (c : Dev nD) : (⟨1, ![8192]⟩ : Shape).Idx → BitVec 32 := m ((c : Thread nD τ).loc main_arg2)

end Cert.KernelIdeal.Hand

end
-- ==== Proof.LibScatterCount.lean ====
/-
  A histogram by scatter: adding one at the position each index names counts how often each position is named.

  `Host.scatter` with an integer `add` body folds over the updates in row-major order; every update whose index lies
  inside the operand adds its value at that position, the others are dropped. With a column of `n` indices into a
  line of `K` bins and every update equal to one, bin `b` ends at its initial value plus the number of positions `p`
  whose index, read signed, is `b` (as a 32-bit word: the count is taken modulo 2³²).

  The argument has three parts, none of which looks at the size of `n`:

  * where an update lands. With one scattered operand axis, that axis inserted, and the index vector on axis 1 of the
    index column, update `j` has start `idx[j, 0]` read signed and window coordinate 0, so it lands on bin `idx[j, 0]`
    when `0 ≤ idx[j, 0] < K` and is dropped otherwise (`siIdx_col`, `start_col`, `window_none`, `sum_col`,
    `resultIdx_some`, `resultIdx_none`);
  * what a fold of such steps does to one bin. A step changes bin `b` only when its update lands on `b`, and then by
    adding one; by induction over the list of updates, the fold adds to bin `b` the number of list elements that land
    on it (`foldl_add_count`);
  * what that number is over the whole row-major enumeration. The enumeration meets every position `p < n` exactly
    once, so the number of enumerated updates landing on `b` is the number of `p` with `idx[p, 0] = b` (`count_rows`).
-/
import Idealize.ShloMosaic.PureOps
import Idealize.ShloMosaic.Lib.ValueIdx
import Idealize.ShloMosaic.Lib.StableHlo.Predicate

noncomputable section

open scoped BigOperators
open Idealize.ShloMosaic Idealize.ShloMosaic.ValueIdx

namespace Cert.LibScatterCount

/-! ### Where an update lands -/

open StableHlo.Predicate in
/-- With the index vector on axis 1 of an [n × 1] index column and one scattered operand axis, update `j` reads its one
    start component at row `j 0` of the column: the update's only axis is its scatter axis and goes to the column's
    axis 0, and the component number, below the length 1 of the axis map, is 0. -/
theorem siIdx_col {K n : Nat} (d : ScatterDims ⟨1, ![K]⟩ ⟨2, ![n, 1]⟩ ⟨1, ![n]⟩)
    (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    -- axis 0 is not the index vector's: its coordinate is the update's coordinate on its one (scatter) axis
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    -- axis 1 is the index vector's: its coordinate is the component number, and there is one component
    unfold ScatterDims.siIdx
    rw [dif_pos (by rw [hivd])]
    apply Fin.ext
    have hl : d.scatterDimsToOperandDims.length = 1 := by rw [hsd]; rfl
    have := c.isLt
    show c.val = 0
    omega

open StableHlo.Predicate in
/-- The start of update `j`'s window on the operand's one axis is the index at row `j 0` of the column, read signed:
    the axis map names that axis. -/
theorem start_col {K n : Nat} (d : ScatterDims ⟨1, ![K]⟩ ⟨2, ![n, 1]⟩ ⟨1, ![n]⟩)
    (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a = (idx (ixP (j 0))).toInt := by
  have ha : a ∈ d.scatterDimsToOperandDims := by
    rw [hsd]
    have h0 : a = 0 := Subsingleton.elim _ _
    subst h0
    exact List.mem_singleton.mpr rfl
  unfold ScatterDims.start
  rw [dif_pos ha, siIdx_col d hsd hivd]
  rfl

/-- The window coordinate on the operand's one axis is 0: that axis is an inserted window axis, so no axis of the
    update is a window axis going to it. -/
theorem window_none {K n : Nat} (d : ScatterDims ⟨1, ![K]⟩ ⟨2, ![n, 1]⟩ ⟨1, ![n]⟩)
    (hiw : d.insertedWindowDims = [0])
    (j : (⟨1, ![n]⟩ : Shape).Idx) (a : Fin (⟨1, ![K]⟩ : Shape).rank) :
    d.window j a = 0 := by
  have ha : a ∉ d.sKept := by
    have h0 : a = 0 := Subsingleton.elim _ _
    subst h0
    simp [ScatterDims.sKept, Shape.kept, hiw]
  unfold ScatterDims.window
  rw [dif_neg ha]

open StableHlo.Predicate in
/-- Start plus window coordinate, the position update `j` aims at on the operand's one axis, is the signed index at
    row `j 0`. -/
theorem sum_col {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a + (d.window j a : Int) = (idx (ixP (j 0))).toInt := by
  rw [start_col d hsd hivd, window_none d hiw]; simp

open StableHlo.Predicate in
/-- An update that lands, lands on bin `b` exactly when its signed index is `b`: the landing position is the index,
    which is then non-negative, taken as a natural number. -/
theorem resultIdx_some {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (i : (⟨1, ![K]⟩ : Shape).Idx)
    (h : d.resultIdx? j idx = some i) (b : Fin K) :
    ix1 b = i ↔ (idx (ixP (j 0))).toInt = (b.val : Int) := by
  unfold ScatterDims.resultIdx? at h
  split at h
  · next hin =>
    have hi := Option.some.inj h
    -- inside the operand: 0 ≤ index < K
    have h0 := hin 0
    rw [sum_col d hiw hsd hivd] at h0
    -- and the landing coordinate is that index as a natural number
    have hv : (i 0).val = (idx (ixP (j 0))).toInt.toNat := by
      rw [← hi]
      show (d.start j idx 0 + (d.window j 0 : Int)).toNat = _
      rw [sum_col d hiw hsd hivd]
    constructor
    · intro e
      have : b.val = (i 0).val := congrArg (fun f => (f 0).val) e
      omega
    · intro e
      rw [eq_ix1 i]
      congr 1
      apply Fin.ext
      omega
  · exact absurd h (by simp)

open StableHlo.Predicate in
/-- A dropped update's signed index is no bin: it is negative or at least `K`, and every bin `b` has `0 ≤ b < K`. -/
theorem resultIdx_none {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx)
    (h : d.resultIdx? j idx = none) (b : Fin K) :
    (idx (ixP (j 0))).toInt ≠ (b.val : Int) := by
  intro e
  unfold ScatterDims.resultIdx? at h
  split at h
  · exact absurd h (by simp)
  · next hout =>
    -- were the index `b`, it would be inside the operand and the update would land
    apply hout
    intro a
    have h0 : a = 0 := Subsingleton.elim _ _
    subst h0
    rw [sum_col d hiw hsd hivd, e]
    have := b.isLt
    show (0 : Int) ≤ b.val ∧ (b.val : Int) < (K : Nat)
    omega

/-! ### A fold of steps that add one at a position -/

/-- A left fold whose step adds one at position `c` exactly on the list elements that pass the test `T`, and leaves
    position `c` as it was on the others, ends at the initial value there plus the number of elements that pass. -/
theorem foldl_add_count {ι β : Type} (F : (β → BitVec 32) → ι → β → BitVec 32) (c : β) (T : ι → Bool)
    (hF : ∀ r m, F r m c = if T m = true then r c + 1#32 else r c) (L : List ι) (r : β → BitVec 32) :
    (L.foldl F r) c = r c + BitVec.ofNat 32 (L.countP T) := by
  induction L generalizing r with
  | nil => simp
  | cons m L ih =>
    -- the tail's fold starts from the head's step: (r c [+ 1]) + #tail = r c + (#tail [+ 1])
    rw [List.foldl_cons, ih, hF, List.countP_cons]
    by_cases hT : T m = true
    · rw [if_pos hT, if_pos hT, BitVec.ofNat_add, BitVec.add_assoc]
      congr 1
      exact BitVec.add_comm _ _
    · rw [if_neg hT, if_neg hT, Nat.add_zero]

/-! ### The row-major enumeration of a line meets every position once -/

/-- Counting, along the row-major enumeration of a line of `n` positions, the positions whose coordinate passes a test
    is counting the coordinates `p < n` that pass it: the enumeration meets every coordinate exactly once. -/
theorem count_rows {n : Nat} (P : Fin n → Bool) :
    (List.finRange (⟨1, ![n]⟩ : Shape).numel).countP (fun m => P (((⟨1, ![n]⟩ : Shape).rowMajor.symm m) 0))
      = (Finset.univ.filter fun p : Fin n => P p = true).card := by
  -- the enumeration has no repeats, so the count is the size of the set of enumerated numbers that pass
  rw [List.countP_eq_length_filter, ← List.toFinset_card_of_nodup ((List.nodup_finRange _).filter _),
    List.toFinset_filter, List.toFinset_finRange]
  -- and a number's coordinate is a bijection from the numbers onto the coordinates
  refine Finset.card_bij (fun m _ => ((⟨1, ![n]⟩ : Shape).rowMajor.symm m) 0) ?_ ?_ ?_
  · intro m hm
    exact Finset.mem_filter.2 ⟨Finset.mem_univ _, (Finset.mem_filter.1 hm).2⟩
  · intro m _ m' _ e
    apply (⟨1, ![n]⟩ : Shape).rowMajor.symm.injective
    rw [eq_ix1 ((⟨1, ![n]⟩ : Shape).rowMajor.symm m), eq_ix1 ((⟨1, ![n]⟩ : Shape).rowMajor.symm m'), e]
  · intro p hp
    refine ⟨(⟨1, ![n]⟩ : Shape).rowMajor (ix1 p), Finset.mem_filter.2 ⟨Finset.mem_univ _, ?_⟩, ?_⟩
    · rw [Equiv.symm_apply_apply]; exact (Finset.mem_filter.1 hp).2
    · rw [Equiv.symm_apply_apply]; rfl

/-! ### The histogram -/

/-- Bin `b` of a scatter of ones along a column of indices: its initial word plus the number of rows whose index is `b`. -/
theorem scatter_ones_count {K n : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → BitVec 32) (idx : IVec ⟨2, ![n, 1]⟩ 32) (b : Fin K) :
    Host.scatter d IntOp.addi x idx (fun _ => 1#32) (ix1 b)
      = x (ix1 b) + BitVec.ofNat 32 (Finset.univ.filter fun p : Fin n => (idx (StableHlo.Predicate.ixP p)).toInt = (b.val : Int)).card := by
  unfold Host.scatter
  -- the scatter is a left fold over the enumerated updates; the test on update number `m` is "its index is `b`"
  refine (foldl_add_count _ (ix1 b)
    (fun m => decide ((idx (StableHlo.Predicate.ixP (((⟨1, ![n]⟩ : Shape).rowMajor.symm m) 0))).toInt = (b.val : Int)))
    ?_ _ x).trans ?_
  · -- one step, read at bin `b`
    intro r m
    beta_reduce
    cases hres : d.resultIdx? ((⟨1, ![n]⟩ : Shape).rowMajor.symm m) idx with
    | none =>
      -- dropped: the bin keeps its value, and the index is not `b`
      have hne := resultIdx_none d hiw hsd hivd idx _ hres b
      show r (ix1 b) = _
      rw [if_neg (fun h => hne (of_decide_eq_true h))]
    | some i =>
      -- landed on `i`: bin `b` gains one when `i` is `b`, that is when the index is `b`, and keeps its value otherwise
      have hiff := resultIdx_some d hiw hsd hivd idx _ i hres b
      show (if ix1 b = i then IntOp.addi (r i) 1#32 else r (ix1 b)) = _
      by_cases hb : ix1 b = i
      · rw [if_pos hb, if_pos (decide_eq_true (hiff.1 hb)), ← hb]
        rfl
      · rw [if_neg hb, if_neg (fun h => hb (hiff.2 (of_decide_eq_true h)))]
  · -- the number of enumerated updates whose index is `b` is the number of rows whose index is `b`
    rw [count_rows fun p => decide ((idx (StableHlo.Predicate.ixP p)).toInt = (b.val : Int))]
    simp only [decide_eq_true_eq]

end Cert.LibScatterCount

end
-- ==== Proof.KerPrefix.lean ====
/-
  What the host operations before the region leave in the three arrays the kernel reads besides the probabilities: each
  row's own code word, the extended table, and the row of effective bit counts.

  Each array is first written as one term of the argument arrays (the composition of the operations that produce it),
  then read at an index, under the hypothesis that every label lies in [0, 1000):

  * the extended table is the code table padded below by 24 rows of the integer 0 converted to a float, which is the
    real 0; narrowing its format changes nothing on extended reals;
  * the gathered array selects, per row, between a gather of the table's rows at the labels and a constant, on the
    test "the label, a negative one moved up by 1000, lies in [0, 999]". A label in range is not negative, so nothing
    is moved; the test passes on every row, so the gather is taken; and the gather's clamp into [0, 999] leaves the
    label alone, so row i is the table's row at label i, which is row `cl i` of the extended table;
  * the row of effective counts selects, per position c of 1024, between the padded table's row sum (0 plus the sum of
    the 128 entries: the bit count of c in the extended table) and the constant 1e9, on the test "the count at c is
    positive", where the count adds a one at the position each label names (a negative label moved up by 1024: none
    is). Update j lands on position c exactly when label j is c, so the count at c is the number of rows of class c, as
    a real number, and is positive exactly when c is some row's class.
-/
import proofs.«431263_j712964571561_3_alg».proof.Proof.Spec
import proofs.«431263_j712964571561_3_alg».proof.Proof.Consts
import proofs.«431263_j712964571561_3_alg».proof.Proof.Gen.KernelIdeal.Frame
import proofs.«431263_j712964571561_3_alg».proof.Proof.KerArgs
import proofs.«431263_j712964571561_3_alg».proof.Proof.LibScatterCount
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.KernelVsHost

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (m : (ℓ : Loc nD τ sig) → Buf (Elt Ideal) ℓ)

/-! ## The three arrays as terms of the argument arrays -/

/-- The labels as an [8192 × 1] column of start indices, a negative label first moved up by `w`. -/
def wrapCol (w : BitVec 32) (tg : IVec S8192 32) : IVec S8192x1 32 :=
  broadcastInDim S8192x1 ![0] bcast_S8192_S8192x1_0
    (select (cmpi .slt tg (broadcastInDim S8192 ![] bcast_S_S8192 (constantI S_ 32 0#32)))
      (addi tg (broadcastInDim S8192 ![] bcast_S_S8192 (constantI S_ 32 w))) tg)

/-- Per row: is the start index inside `[0, 999]`? (the conjunction over the column's one component). -/
def inRange (col : IVec S8192x1 32) : IVec S8192 1 :=
  Host.reduce IntOp.andi
    (andi (cmpi .sge col (broadcastInDim S8192x1 ![] bcast_S_S8192x1 (constantI S_ 32 0#32)))
      (cmpi .sle col (broadcastInDim S8192x1 ![0, 1] bcast_S1x1_S8192x1_0_1
        (broadcastInDim S1x1 ![1] bcast_S1_S1x1_1 (constantI S1 32 999#32)))))
    (constantI S_ 1 1#1) reducesTo_S8192x1_S8192_d1 h_S_

/-- The gathered code words: row `i` is the table's row at label `i` where that label is in range, a NaN word's
    reading elsewhere. -/
def takeTerm (cw : FVec Ideal S1000x128 .f32) (tg : IVec S8192 32) : FVec Ideal S8192x128 .f32 :=
  select (broadcastInDim S8192x128 ![0] bcast_S8192_S8192x128_0 (inRange (wrapCol 1000#32 tg)))
    (Host.gather gather_S1000x128_S8192x1_S8192x128_1_0_n_n_0_1_1128 cw (wrapCol 1000#32 tg))
    (broadcastInDim S8192x128 ![] bcast_S_S8192x128 (constant (F := Ideal) S_ .f32 0x7FC00000#32))

/-- The code table with 24 rows of the converted integer 0 appended. -/
def padTerm (cw : FVec Ideal S1000x128 .f32) : FVec Ideal S1024x128 .f32 :=
  pad S1024x128 ![0, 0] ![24, 0] ![0, 0] cw (sitofp (F := Ideal) .f32 (constantI S_ 32 0#32))
    pads_S1000x128_S1024x128_0240_000 h_S_

/-- How often each of the 1024 positions is named by a label: ones scattered, adding, into zeros. -/
def countTerm (tg : IVec S8192 32) : FVec Ideal S1024 .f32 :=
  Host.scatterAdd scatter_S1024_S8192x1_S8192_n_0_0_1
    (broadcastInDim S1024 ![] bcast_S_S1024 (constant (F := Ideal) S_ .f32 0x00000000#32))
    (wrapCol 1024#32 tg)
    (broadcastInDim S8192 ![] bcast_S_S8192 (constant (F := Ideal) S_ .f32 0x3F800000#32))

/-- The row of effective bit counts: the padded table's row sum where the position is named by some label, the large
    constant elsewhere. -/
def effTerm (cw : FVec Ideal S1000x128 .f32) (tg : IVec S8192 32) : FVec Ideal S1x1024 .f32 :=
  broadcastInDim S1x1024 ![1] bcast_S1024_S1x1024_1
    (select
      (cmpf .ogt (countTerm tg) (broadcastInDim S1024 ![] bcast_S_S1024 (constant (F := Ideal) S_ .f32 0x00000000#32)))
      (Host.reduceAdd (padTerm cw) (constant (F := Ideal) S_ .f32 0x00000000#32) reducesTo_S1024x128_S1024_d1 h_S_)
      (broadcastInDim S1024 ![] bcast_S_S1024 (constant (F := Ideal) S_ .f32 0x4E6E6B28#32)))

set_option maxHeartbeats 1000000 in
/-- What the operations before the region leave in the gathered array. -/
theorem V_take_eq (c : Dev nD) :
    (V m c main_v0 : (⟨2, ![8192, 128]⟩ : Shape).Idx → EReal) = takeTerm (cwOf m c) (tgOf m c) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

set_option maxHeartbeats 1000000 in
/-- What they leave in the table the kernel multiplies by: the padded table, narrowed (no change on extended reals). -/
theorem V_table_eq (c : Dev nD) :
    (V m c main_v2 : (⟨2, ![1024, 128]⟩ : Shape).Idx → EReal)
      = truncf (F := Ideal) .bf16 (padTerm (cwOf m c)) bitsLt_bf16_f32 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

set_option maxHeartbeats 1000000 in
/-- What they leave in the row of effective bit counts. -/
theorem V_eff_eq (c : Dev nD) :
    (V m c main_v16 : (⟨2, ![1, 1024]⟩ : Shape).Idx → EReal) = effTerm (cwOf m c) (tgOf m c) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-! ## Reading the terms at an index -/

open StableHlo.Predicate (ixP)

/-- A label below 2³¹ is not negative when read signed … -/
theorem toInt_of_small (x : BitVec 32) (h : x.toNat < 1000) : x.toInt = (x.toNat : Int) :=
  BitVec.toInt_eq_toNat_of_lt (by omega)

/-- … so the test "label < 0" fails on it. -/
theorem slt_zero_of_small (x : BitVec 32) (h : x.toNat < 1000) : IntOp.cmpi .slt x 0#32 = 0#1 := by
  have hx := toInt_of_small x h
  show BitVec.ofBool (x.slt 0#32) = 0#1
  rw [BitVec.slt_eq_decide, BitVec.toInt_zero, hx, decide_eq_false (by omega)]
  rfl

/-- Row `p` of the label column is label `p` itself when that label is in range: nothing is wrapped. -/
theorem wrapCol_apply (w : BitVec 32) (tg : IVec S8192 32) (p : Fin 8192) (h : (tg (ix1 p)).toNat < 1000) :
    wrapCol w tg (ixP p) = tg (ix1 p) := by
  unfold wrapCol
  refine (broadcastInDim_apply _ _ _ (ixP p) (ix1 p) (fun a => match a with | ⟨0, _⟩ => rfl)).trans ?_
  show Scalar.select (IntOp.cmpi .slt (tg (ix1 p)) 0#32) _ _ = _
  rw [slt_zero_of_small _ h, select_zero]

/-- Every index of an [n × 1] column is a row's. -/
theorem eq_ixP {n : Nat} (i : (⟨2, ![n, 1]⟩ : Shape).Idx) : i = ixP (i 0) := by
  funext a
  match a with
  | ⟨0, _⟩ => rfl
  | ⟨1, h⟩ =>
    have h1 : (i ⟨1, h⟩).val < 1 := (i ⟨1, h⟩).isLt
    exact Fin.ext (by show (i ⟨1, h⟩).val = 0; omega)

/-! ### The extended table -/

/-- The padded table at (c, k): the table's entry for `c < 1000`, the converted integer 0 — the real 0 — below it. -/
theorem padTerm_apply (cw : FVec Ideal S1000x128 .f32) (cc : Fin 1024) (k : Fin 128) :
    padTerm cw (ix2 cc k) = Spec.T cw cc k := by
  unfold padTerm Spec.T
  by_cases h : cc.val < 1000
  · rw [dif_pos h]
    exact pad_apply_of_inside _ _ _ cw _ _ _ (ix2 cc k) (ix2 ⟨cc.val, h⟩ k) (fun a => match a with
      | ⟨0, _⟩ => by show cc.val = 0 + cc.val * (0 + 1); omega
      | ⟨1, _⟩ => by show k.val = 0 + k.val * (0 + 1); omega)
  · rw [dif_neg h]
    refine (pad_apply_of_not_inside _ _ _ cw _ _ _ (ix2 cc k) 0 ?_).trans ?_
    · intro hh
      have h3 : (cc.val - 0) / (0 + 1) < 1000 := hh.2.2
      omega
    · show (((0#32 : BitVec 32).toInt : ℝ) : EReal) = 0
      rw [BitVec.toInt_zero]
      simp

/-! ### The gathered code words -/

/-- A conjunction, folded from 1 over a set of bits that are all 1, is 1. -/
theorem fold_andi_one {ι : Type} [DecidableEq ι] (S : Finset ι) (x : ι → BitVec 1) (hx : ∀ i ∈ S, x i = 1#1) :
    S.fold IntOp.andi 1#1 x = 1#1 := by
  induction S using Finset.induction_on with
  | empty => rfl
  | insert a S ha ih =>
    rw [Finset.fold_insert ha, hx a (Finset.mem_insert_self a S),
      ih (fun i hi => hx i (Finset.mem_insert_of_mem hi))]
    rfl

/-- When every start index of the column lies in `[0, 999]`, every row passes the range test. -/
theorem inRange_one (col : IVec S8192x1 32) (hcol : ∀ i, 0 ≤ (col i).toInt ∧ (col i).toInt ≤ 999) (j : S8192.Idx) :
    inRange col j = 1#1 := by
  unfold inRange
  rw [Host.reduce_eq_fold]
  refine fold_andi_one _ _ (fun i _ => ?_)
  show IntOp.andi (BitVec.ofBool ((0#32 : BitVec 32).sle (col i))) (BitVec.ofBool ((col i).sle 999#32)) = 1#1
  have h0 : (0#32 : BitVec 32).sle (col i) = true := by
    rw [BitVec.sle_eq_decide, BitVec.toInt_zero]; exact decide_eq_true (hcol i).1
  have h1 : (col i).sle 999#32 = true := by
    rw [BitVec.sle_eq_decide]; exact decide_eq_true (hcol i).2
  rw [h0, h1]
  rfl

/-- Taking rows of an [N × K] table by a column of n row numbers, as a gather: its dimension numbers — the row axis
    collapsed and start-indexed, the column axis the one offset axis with whole rows as slices, the start indices an
    [n × 1] column with the index vector on axis 1. -/
abbrev rowDims (N K n : Nat)
    (wf : GatherDims.WF ⟨2, ![N, K]⟩ ⟨2, ![n, 1]⟩ ⟨2, ![n, K]⟩ [1] [0] [] [0] [] 1 ![1, K]) :
    GatherDims ⟨2, ![N, K]⟩ ⟨2, ![n, 1]⟩ ⟨2, ![n, K]⟩ where
  offsetDims := [1]
  collapsedSliceDims := [0]
  operandBatchingDims := []
  startIndicesBatchingDims := []
  startIndexMap := [0]
  indexVectorDim := 1
  sliceSizes := ![1, K]
  wf := wf

/-- THE TAKE OF ROWS read at (p, q): the table at row "start index `p`, read signed and clamped into the table",
    column `q`. -/
theorem gather_rows_apply {α : Type} {N K n w : Nat} (hN : 0 < N)
    (wf : GatherDims.WF ⟨2, ![N, K]⟩ ⟨2, ![n, 1]⟩ ⟨2, ![n, K]⟩ [1] [0] [] [0] [] 1 ![1, K])
    (x : (⟨2, ![N, K]⟩ : Shape).Idx → α) (idx : IVec ⟨2, ![n, 1]⟩ w) (p : Fin n) (q : Fin K) :
    Host.gather (rowDims N K n wf) x idx (ix2 p q)
      = x (ix2 ⟨min (idx (ixP p)).toInt.toNat (N - 1), by omega⟩ q) := by
  unfold Host.gather
  congr 1
  funext a
  refine Fin.ext ?_
  match a with
  | ⟨0, _⟩ =>
    -- the row axis: collapsed (no offset coordinate), not batching, start-indexed by the column's entry for row p
    show (rowDims N K n wf).start (ix2 p q) idx 0 + (rowDims N K n wf).batchCoord (ix2 p q) 0
      + (rowDims N K n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K n wf).startIndexMap from List.mem_singleton.mpr rfl)]
    have hsi : (rowDims N K n wf).siIdx (ix2 p q) ⟨List.idxOf (0 : Fin 2) (rowDims N K n wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    rfl
  | ⟨1, _⟩ =>
    -- the column axis: not start-indexed, not batching, the result's own column
    show (rowDims N K n wf).start (ix2 p q) idx 1 + (rowDims N K n wf).batchCoord (ix2 p q) 1
      + (rowDims N K n wf).offCoord (ix2 p q) 1 = q.val
    rw [GatherDims.batchCoord_eq_zero _ _ _ List.not_mem_nil]
    have hs : (rowDims N K n wf).start (ix2 p q) idx 1 = 0 := by
      unfold GatherDims.start
      rw [dif_neg (show (1 : Fin 2) ∉ (rowDims N K n wf).startIndexMap from (by decide : (1 : Fin 2) ∉ ([0] : List (Fin 2))))]
    have hk : (1 : Fin 2) ∈ (rowDims N K n wf).sKept :=
      (GatherDims.mem_sKept _ _).2 ⟨(by decide : (1 : Fin 2) ∉ ([0] : List (Fin 2))), List.not_mem_nil⟩
    rw [hs]
    unfold GatherDims.offCoord
    rw [dif_pos hk]
    simp only [Nat.zero_add]
    rfl

/-- With every label in range, the gathered array at (i, k) is the table at (label i, k): no label is wrapped, every
    row passes the range test, and the clamp leaves a start index below 1000 alone. -/
theorem takeTerm_apply (cw : FVec Ideal S1000x128 .f32) (tg : IVec S8192 32)
    (htg : ∀ j : Fin 8192, (tg (ix1 j)).toNat < 1000) (i : Fin 8192) (k : Fin 128) :
    takeTerm cw tg (ix2 i k) = cw (ix2 ⟨(tg (ix1 i)).toNat, htg i⟩ k) := by
  unfold takeTerm
  have hcol : ∀ r, 0 ≤ (wrapCol 1000#32 tg r).toInt ∧ (wrapCol 1000#32 tg r).toInt ≤ 999 := fun r => by
    obtain ⟨p, rfl⟩ : ∃ p : Fin 8192, r = ixP p := ⟨r 0, eq_ixP r⟩
    rw [wrapCol_apply _ _ p (htg p), toInt_of_small _ (htg p)]
    have := htg p
    omega
  have hbit : broadcastInDim S8192x128 ![0] bcast_S8192_S8192x128_0 (inRange (wrapCol 1000#32 tg)) (ix2 i k) = 1#1 :=
    (broadcastInDim_apply _ _ _ (ix2 i k) (ix1 i) (fun a => match a with | ⟨0, _⟩ => rfl)).trans (inRange_one _ hcol _)
  show Scalar.select (broadcastInDim S8192x128 ![0] bcast_S8192_S8192x128_0 (inRange (wrapCol 1000#32 tg)) (ix2 i k))
    (Host.gather gather_S1000x128_S8192x1_S8192x128_1_0_n_n_0_1_1128 cw (wrapCol 1000#32 tg) (ix2 i k)) _ = _
  rw [hbit, select_one]
  refine (gather_rows_apply (by decide) gather_S1000x128_S8192x1_S8192x128_1_0_n_n_0_1_1128_wf cw
    (wrapCol 1000#32 tg) i k).trans ?_
  have hv : min (wrapCol 1000#32 tg (ixP i)).toInt.toNat (1000 - 1) = (tg (ix1 i)).toNat := by
    rw [wrapCol_apply _ _ _ (htg i), toInt_of_small _ (htg i), Int.toNat_natCast]
    have := htg i
    omega
  exact congrArg cw (congrArg (fun r => ix2 r k) (Fin.ext hv))

/-! ### The effective bit counts -/

/-- A sum of ones over a finite set is positive exactly when the set has an element. -/
theorem zero_lt_sum_one_iff {ι : Type} (S : Finset ι) : (0 : EReal) < 0 + ∑ _j ∈ S, (1 : EReal) ↔ S.Nonempty := by
  have e : ∑ _j ∈ S, (1 : EReal) = ((S.card • (1 : ℝ) : ℝ) : EReal) := by
    rw [Finset.sum_const, EReal.coe_nsmul]
    rfl
  rw [zero_add, e, EReal.coe_pos, nsmul_eq_mul, mul_one, Nat.cast_pos, Finset.card_pos]

/-- The padded table's row sum at `c` is the bit count of class `c` in the extended table. -/
theorem rowSum_apply (cw : FVec Ideal S1000x128 .f32) (cc : Fin 1024) :
    Host.reduceAdd (padTerm cw) (constant (F := Ideal) S_ .f32 0x00000000#32) reducesTo_S1024x128_S1024_d1 h_S_ (ix1 cc)
      = Spec.sc (Spec.T cw) cc := by
  show Ideal.hostReduceAdd reducesTo_S1024x128_S1024_d1 (padTerm cw) zeroW (ix1 cc) = _
  rw [Ideal.hostReduceAdd_single _ reduces_S1024x128_S1024, zeroW_eq, zero_add]
  unfold Spec.sc
  refine Finset.sum_congr rfl (fun k _ => ?_)
  have hl : reduces_S1024x128_S1024.lift (ix1 cc) k = ix2 cc k := by
    funext a
    match a with
    | ⟨0, _⟩ => rfl
    | ⟨1, _⟩ => rfl
  rw [hl]
  exact padTerm_apply cw cc k

/-- With every label in range, position `c` of the count is positive exactly when some row's class is `c`: update `j`
    lands on the position its label names, so the updates landing on `c` are the rows of class `c`, each adding one. -/
theorem count_pos_iff (tg : IVec S8192 32) (htg : ∀ j : Fin 8192, (tg (ix1 j)).toNat < 1000) (cc : Fin 1024) :
    FloatOps.cmpf (F := Ideal) (φ := .f32) CmpFPredicate.ogt (countTerm tg (ix1 cc)) zeroW = 1#1
      ↔ cc ∈ Finset.univ.image (Spec.cl tg) := by
  unfold countTerm
  show BitVec.ofBool (decide (zeroW < zeroW + ∑ j ∈ Finset.univ.filter
      (fun j => scatter_S1024_S8192x1_S8192_n_0_0_1.resultIdx? j (wrapCol 1024#32 tg) = some (ix1 cc)), oneW)) = 1#1 ↔ _
  rw [zeroW_eq, oneW_eq]
  have hb : ∀ b : Bool, BitVec.ofBool b = 1#1 ↔ b = true := fun b => by cases b <;> decide
  rw [hb, decide_eq_true_eq, zero_lt_sum_one_iff]
  have hidx : ∀ p : Fin 8192, (wrapCol 1024#32 tg (ixP p)).toInt = ((tg (ix1 p)).toNat : Int) := fun p => by
    rw [wrapCol_apply _ _ p (htg p), toInt_of_small _ (htg p)]
  have hcl : ∀ p : Fin 8192, (Spec.cl tg p).val = (tg (ix1 p)).toNat := fun p => by
    show (tg (ix1 p)).toNat % 1024 = _
    have := htg p
    omega
  constructor
  · rintro ⟨j, hj⟩
    have h := (Finset.mem_filter.1 hj).2
    have e := (Cert.LibScatterCount.resultIdx_some scatter_S1024_S8192x1_S8192_n_0_0_1 rfl rfl rfl
      (wrapCol 1024#32 tg) j (ix1 cc) h cc).1 rfl
    obtain ⟨p, rfl⟩ : ∃ p : Fin 8192, j = ix1 p := ⟨j 0, eq_ix1 j⟩
    have e' : (wrapCol 1024#32 tg (ixP p)).toInt = (cc.val : Int) := e
    rw [hidx p] at e'
    exact Finset.mem_image.2 ⟨p, Finset.mem_univ _, Fin.ext (by rw [hcl p]; omega)⟩
  · intro h
    obtain ⟨p, _, hp⟩ := Finset.mem_image.1 h
    refine ⟨ix1 p, Finset.mem_filter.2 ⟨Finset.mem_univ _, ?_⟩⟩
    have e : (wrapCol 1024#32 tg (ixP p)).toInt = (cc.val : Int) := by
      rw [hidx p, ← hp, hcl p]
    cases hres : scatter_S1024_S8192x1_S8192_n_0_0_1.resultIdx? (ix1 p) (wrapCol 1024#32 tg) with
    | none =>
      exact absurd e (Cert.LibScatterCount.resultIdx_none scatter_S1024_S8192x1_S8192_n_0_0_1 rfl rfl rfl
        (wrapCol 1024#32 tg) (ix1 p) hres cc)
    | some i0 =>
      rw [(Cert.LibScatterCount.resultIdx_some scatter_S1024_S8192x1_S8192_n_0_0_1 rfl rfl rfl
        (wrapCol 1024#32 tg) (ix1 p) i0 hres cc).2 e]

/-- With every label in range, the row of effective bit counts at `c` is `eff`. -/
theorem effTerm_apply (cw : FVec Ideal S1000x128 .f32) (tg : IVec S8192 32)
    (htg : ∀ j : Fin 8192, (tg (ix1 j)).toNat < 1000) (cc : Fin 1024) :
    effTerm cw tg (ix2 0 cc) = Spec.eff (Spec.T cw) (Spec.cl tg) cc := by
  unfold effTerm
  refine (broadcastInDim_apply _ _ _ (ix2 0 cc) (ix1 cc) (fun a => match a with | ⟨0, _⟩ => rfl)).trans ?_
  show Scalar.select (FloatOps.cmpf (F := Ideal) (φ := .f32) CmpFPredicate.ogt (countTerm tg (ix1 cc)) zeroW)
    (Host.reduceAdd (padTerm cw) (constant (F := Ideal) S_ .f32 0x00000000#32) reducesTo_S1024x128_S1024_d1 h_S_ (ix1 cc))
    bigW = _
  rw [rowSum_apply]
  unfold Spec.eff
  by_cases h : cc ∈ Finset.univ.image (Spec.cl tg)
  · rw [if_pos h, (count_pos_iff tg htg cc).2 h, select_one]
  · rw [if_neg h, eq_zero_of_ne_one (fun e => h ((count_pos_iff tg htg cc).1 e)), select_zero]

/-! ## The three facts -/

/-- With every label in range, row `i` of the gathered array is the code word of row `i`'s class. -/
theorem V_take (c : Dev nD) (htg : ∀ j : Fin 8192, (tgOf m c (ix1 j)).toNat < 1000) (i : Fin 8192) (k : Fin 128) :
    (V m c main_v0 : (⟨2, ![8192, 128]⟩ : Shape).Idx → EReal) (ix2 i k) = T (cwOf m c) (cl (tgOf m c) i) k := by
  rw [V_take_eq, takeTerm_apply _ _ htg]
  -- a label below 1000 is its own residue modulo 1024, and the extended table agrees with the table there
  have hc : (cl (tgOf m c) i).val = (tgOf m c (ix1 i)).toNat := by
    show (tgOf m c (ix1 i)).toNat % 1024 = _
    have := htg i
    omega
  unfold Spec.T
  rw [dif_pos (by rw [hc]; exact htg i)]
  exact congrArg (cwOf m c) (congrArg (fun r => ix2 r k) (Fin.ext hc.symm))

/-- The table the kernel multiplies by is the code table extended by zero rows. -/
theorem V_table (c : Dev nD) (cc : Fin 1024) (k : Fin 128) :
    (V m c main_v2 : (⟨2, ![1024, 128]⟩ : Shape).Idx → EReal) (ix2 cc k) = T (cwOf m c) cc k := by
  rw [V_table_eq]
  exact padTerm_apply (cwOf m c) cc k

/-- With every label in range, the row of effective bit counts is `eff`: the bit count of a class that labels a row, the
    large constant otherwise. -/
theorem V_eff (c : Dev nD) (htg : ∀ j : Fin 8192, (tgOf m c (ix1 j)).toNat < 1000) (cc : Fin 1024) :
    (V m c main_v16 : (⟨2, ![1, 1024]⟩ : Shape).Idx → EReal) (ix2 0 cc) = eff (T (cwOf m c)) (cl (tgOf m c)) cc := by
  rw [V_eff_eq]
  exact effTerm_apply (cwOf m c) (tgOf m c) htg cc

end Cert.KernelIdeal.Hand

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerPayload.lean ====
/-
  The two values the kernel body stores, read at a row: the row's sum of cross-entropy terms, and the row's least
  distance over the 1024 columns of the table block.

  Both values are columns `[1024, 1]` obtained from a reduction along the lanes of a `[1024, n]` array, so reading them
  at `(p, 0)` is reading the reduction at row `p`. A lane sum from the zero accumulator is the sum of the row's entries; a
  lane minimum from `+∞` is the least of `+∞` and the row's entries. Under the sum the first value is pointwise: with
  negation spelled `0 - x`, each entry is `-(c · log x + (1 - c) · log1p (-x))`. Under the minimum, the entry at column `c`
  is (row sum of the prediction bits, kept as a column and spread along the lanes) + (the one-row array, spread down the
  rows) − 2 · (the block product at `(p, c)`); the product contracts the 128 code bits of both operands, so it is the sum
  over `k` of the prediction bit `(p, k)` times the table entry `(c, k)`. The prediction bit itself is the comparison's
  one-bit word, widened and read as a signed integer, which is the word read as a natural number since it is 0 or 1;
  narrowing it to the shorter float format changes nothing at the ideal values.
-/
import proofs.«431263_j712964571561_3_alg».proof.Proof.Spec
import proofs.«431263_j712964571561_3_alg».proof.Proof.Consts
import proofs.«431263_j712964571561_3_alg».proof.Proof.LibColumnLayout
import proofs.«431263_j712964571561_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

/-! ## Reductions along the lanes, read at a row -/

/-- The source index over row `p` with coordinate `k` inserted on axis 1 is `(p, k)`. -/
theorem lift_row {a b : ℕ} (h : (⟨2, ![a, b]⟩ : Shape).Reduces [1] ⟨1, ![a]⟩) (p : Fin a) (k : Fin b) :
    h.lift (ix1 p) k = ix2 p k := by
  funext ax
  match ax with
  | ⟨0, _⟩ => rfl
  | ⟨1, _⟩ => rfl

/-- A sum along the lanes from the neutral accumulator, read at row `p`: the sum of the row's entries. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  exact Finset.sum_congr rfl fun k _ => congrArg v (lift_row h p k)

/-- A minimum along the lanes, read at row `p`: the least of the accumulator's value and the row's entries. -/
theorem laneMin_apply {a b : ℕ} (v : FVec Ideal ⟨2, ![a, b]⟩ .f32) (acc : BitVec 32) (h : (⟨2, ![a, b]⟩ : Shape).Reduces [1] ⟨1, ![a]⟩)
    (hφ : FKind.Formats .f32) (hacc : acc = FKind.minimumf.neutral .f32 hφ) (p : Fin a) :
    multiReduction (F := Ideal) .minimumf [1] ⟨1, ![a]⟩ v acc h hφ hacc (ix1 p)
      = (Finset.univ : Finset (Fin b)).fold min (Ideal.ofBits .f32 acc) (fun c => v (ix2 p c)) := by
  rw [multiReduction_minimumf_eq_fold]
  refine (h.fold_filter_drop_single _ _ v (ix1 p)).trans ?_
  exact congrArg (Finset.fold min (Ideal.ofBits .f32 acc) · (Finset.univ : Finset (Fin b))) (funext fun c => congrArg v (lift_row h p c))

/-! ## The prediction bit -/

/-- The prediction bit as the kernel computes it — the comparison's one-bit word widened to 32 bits and read as a signed
    integer — is the same number as the bit read unsigned: the word is 0 or 1, and widening by zeros keeps it non-negative. -/
theorem pred_eq (x : EReal) :
    FloatOps.sitofp (F := Ideal) .f32 ((FloatOps.cmpf (F := Ideal) (φ := .f32) CmpFPredicate.ogt x halfW).setWidth 32) = predOf x := by
  unfold predOf
  generalize FloatOps.cmpf (F := Ideal) (φ := .f32) CmpFPredicate.ogt x halfW = b
  show (((b.setWidth 32).toInt : ℝ) : EReal) = ((b.toNat : ℝ) : EReal)
  rcases BitVec.eq_zero_or_eq_one b with rfl | rfl
  · have h1 : ((0#1 : BitVec 1).setWidth 32).toInt = 0 := by decide
    have h2 : (0#1 : BitVec 1).toNat = 0 := by decide
    rw [h1, h2, Int.cast_zero, Nat.cast_zero]
  · have h1 : ((1#1 : BitVec 1).setWidth 32).toInt = 1 := by decide
    have h2 : (1#1 : BitVec 1).toNat = 1 := by decide
    rw [h1, h2, Int.cast_one, Nat.cast_one]

/-! ## The block product

    The block product contracts axis 1 of both operands: at output `(r, c)` and contraction position `q` the left operand is
    read at `(r, q)` and the right at `(c, q)`. One fact per operand axis. -/

theorem lhs_mm_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_mm_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_mm_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_mm_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The block product into the zero accumulator, read at `(p, c)`: the sum over the 128 code bits of the left operand's
    row `p` times the right operand's row `c`. -/
theorem mm_apply (l r : FVec Ideal S1024x128 .bf16) (p c : Fin 1024) :
    matmul (F := Ideal) dot_S1024x128_S1024x128_S1024x1024_1_1_0_0_n_n none l r (constant (F := Ideal) S1024x1024 .f32 0x00000000#32) (ix2 p c)
      = ∑ k : Fin 128, l (ix2 p k) * r (ix2 c k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p c) ((contrEquiv1 dot_S1024x128_S1024x128_S1024x1024_1_1_0_0_n_n 128 rfl rfl).symm k) = ix2 p k := funext fun a => Fin.ext (by
    match a with
    | ⟨0, _⟩ => exact lhs_mm_0 _ _
    | ⟨1, _⟩ => exact (lhs_mm_1 _ _).trans hk)
  have er : dot_S1024x128_S1024x128_S1024x1024_1_1_0_0_n_n.rhsIdx (ix2 p c) ((contrEquiv1 dot_S1024x128_S1024x128_S1024x1024_1_1_0_0_n_n 128 rfl rfl).symm k) = ix2 c k := funext fun a => Fin.ext (by
    match a with
    | ⟨0, _⟩ => exact rhs_mm_0 _ _
    | ⟨1, _⟩ => exact (rhs_mm_1 _ _).trans hk)
  rw [el, er]

/-! ## The two stored values -/

/-- Row `p` of the first stored value: the sum over the 128 bits of the cross-entropy of the probability block `x0`
    against the code-word block `x1`. -/
theorem pay1_apply (x0 x1 : Vec Ideal S1024x128 .f32) (p : Fin 1024) :
    (k0_pay1 (F := Ideal) x0 x1 : (⟨2, ![1024, 1]⟩ : Shape).Idx → EReal) (ix2 p 0)
      = ∑ k : Fin 128, bce (x1 (ix2 p k)) (x0 (ix2 p k)) := by
  unfold k0_pay1
  dsimp only
  -- the column at (p, 0) is the lane sum at p, which is the sum of row p's entries
  rw [shapeCast_a_a1_apply]
  refine (laneSum_apply _ _ _ _ p).trans (Finset.sum_congr rfl fun k _ => ?_)
  rw [shapeCast_self]
  -- the entry at (p, k): 0 − (c · log x + (1 − c) · log1p (0 − x)), and 0 − y = −y
  show zeroW - (x1 (ix2 p k) * Ideal.log (x0 (ix2 p k)) + (oneW - x1 (ix2 p k)) * Ideal.log1p (zeroW - x0 (ix2 p k))) = _
  rw [zeroW_eq, zero_sub, zero_sub]
  rfl

/-- Row `p` of the second stored value: the least over the 1024 classes of
    (set prediction bits + the class's entry of the row `x3`) − 2 · (bits set in both the prediction and row `c` of `x2`). -/
theorem pay2_apply (x0 : Vec Ideal S1024x128 .f32) (x2 : Vec Ideal S1024x128 .bf16) (x3 : Vec Ideal S1x1024 .f32) (p : Fin 1024) :
    (k0_pay2 (F := Ideal) x0 x2 x3 : (⟨2, ![1024, 1]⟩ : Shape).Idx → EReal) (ix2 p 0)
      = Finset.univ.fold min topW (fun c : Fin 1024 =>
          ((∑ k : Fin 128, predOf (x0 (ix2 p k))) + x3 (ix2 0 c))
            - twoW * ∑ k : Fin 128, predOf (x0 (ix2 p k)) * x2 (ix2 c k)) := by
  unfold k0_pay2
  dsimp only
  -- the column at (p, 0) is the lane minimum at p: the least, from +∞, of row p's entries
  rw [shapeCast_a_a1_apply]
  refine (laneMin_apply _ _ _ _ _ p).trans ?_
  show Finset.fold min topW _ _ = _
  refine congrArg (fun f => Finset.fold min topW f (Finset.univ : Finset (Fin 1024))) (funext fun c => ?_)
  -- the entry at (p, c): (column (p, 0) + row (0, c)) − 2 · product (p, c)
  rw [subf_apply, addf_apply, mulf_apply, broadcast_apply, broadcastTo_a1_ab_apply, shapeCast_a_a1_apply, broadcastTo_1b_ab_apply, shapeCast_self]
  refine congrArg₂ (· - ·) (congrArg₂ (· + ·) ?_ rfl) (congrArg₂ (· * ·) rfl ?_)
  · -- the column is the lane sum of the prediction bits of row p
    exact (laneSum_apply _ _ _ _ p).trans (Finset.sum_congr rfl fun k _ => pred_eq _)
  · -- the product at (p, c) pairs prediction bit (p, k) with table entry (c, k)
    refine (mm_apply _ _ p c).trans (Finset.sum_congr rfl fun k _ => ?_)
    rw [truncf_apply, shapeCast_self]
    exact congrArg (· * x2 (ix2 c k)) (pred_eq _)

end Cert.KernelIdeal.Hand

end
-- ==== Proof.KerArrays.lean ====
/-
  The two arrays the kernel region writes, as whole-array functions of the inputs.

  The grid has eight points; point `t` works on rows 1024·t … 1024·t + 1023.  Its block of the probabilities and of the
  gathered code words is those rows; the table and the row of effective bit counts are the same whole arrays at every
  point.  So row `r = 1024·t + p` of the first result is the sum over the 128 bits of the cross-entropy terms of row
  `r`, and of the second the least distance of row `r`'s prediction over the extended table: each point writes its block
  of ONE function of the inputs, and the eight blocks cover the 8192 rows.
-/
import proofs.«431263_j712964571561_3_alg».proof.Proof.Spec
import proofs.«431263_j712964571561_3_alg».proof.Proof.Consts
import proofs.«431263_j712964571561_3_alg».proof.Proof.Gen.KernelIdeal.Frame
import proofs.«431263_j712964571561_3_alg».proof.Proof.KerArgs
import proofs.«431263_j712964571561_3_alg».proof.Proof.KerPrefix
import proofs.«431263_j712964571561_3_alg».proof.Proof.KerPayload
import Idealize.ShloMosaic.Lib.ValueIdx
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (m : (ℓ : Loc nD τ sig) → Buf (Elt Ideal) ℓ)

theorem hz : (![0, 0] : Fin 2 → Nat) = fun _ => 0 := funext fun a => by fin_cases a <;> rfl

/-- The printed index maps over the grid: the row-blocked windows (probabilities, gathered code words, both results) sit
    at block (t, 0); the table and the row of bit counts at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks at a point -/

/-- Row `p` of point `t`'s block of the probabilities is row `1024·t + p` of the array. -/
theorem iblk0_apply (c : Dev nD) (t : Fin cfg0.N) (p : Fin 1024) (k : Fin 128) (r : Fin 8192)
    (hr : r.val = 1024 * t.val + p.val) :
    (iblk m c 0 t : Vec Ideal S1024x128 .f32) (ix2 p k) = oOf m c (ix2 r k) := by
  obtain ⟨e0, e1, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 128 + 1 * k.val = k.val; rw [e1]; omega

/-- Row `p` of point `t`'s block of the gathered code words is row `1024·t + p` of that array. -/
theorem iblk1_apply (c : Dev nD) (t : Fin cfg0.N) (p : Fin 1024) (k : Fin 128) (r : Fin 8192)
    (hr : r.val = 1024 * t.val + p.val) :
    (iblk m c 1 t : Vec Ideal S1024x128 .f32) (ix2 p k)
      = (V m c main_v0 : (⟨2, ![8192, 128]⟩ : Shape).Idx → EReal) (ix2 r k) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 1024 + 1 * p.val = r.val; rw [e0, hr]; omega
  | ⟨1, _⟩ => show win0_1.index t (1 : Fin 2) * 128 + 1 * k.val = k.val; rw [e1]; omega

/-- Every point's block of the table is the whole table. -/
theorem iblk2_apply (c : Dev nD) (t : Fin cfg0.N) (cc : Fin 1024) (k : Fin 128) :
    (iblk m c 2 t : Vec Ideal S1024x128 .bf16) (ix2 cc k)
      = (V m c main_v2 : (⟨2, ![1024, 128]⟩ : Shape).Idx → EReal) (ix2 cc k) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 1024 + 1 * cc.val = cc.val; rw [e0]; omega
  | ⟨1, _⟩ => show win0_2.index t (1 : Fin 2) * 128 + 1 * k.val = k.val; rw [e1]; omega

/-- Every point's block of the row of bit counts is the whole row. -/
theorem iblk3_apply (c : Dev nD) (t : Fin cfg0.N) (cc : Fin 1024) :
    (iblk m c 3 t : Vec Ideal S1x1024 .f32) (ix2 0 cc)
      = (V m c main_v16 : (⟨2, ![1, 1024]⟩ : Shape).Idx → EReal) (ix2 0 cc) := by
  obtain ⟨-, -, -, -, -, -, e0, e1, -⟩ := idx_facts t
  unfold iblk
  rw [View.read_apply]
  show V m c main_v16 _ = V m c main_v16 _
  congr 1
  funext a
  apply Fin.ext
  match a with
  | ⟨0, _⟩ => show win0_3.index t (0 : Fin 2) * 1 + 1 * (0 : Fin 1).val = (0 : Fin 1).val; rw [e0]; omega
  | ⟨1, _⟩ => show win0_3.index t (1 : Fin 2) * 1024 + 1 * cc.val = cc.val; rw [e1]; omega

/-! ## The two results as whole arrays -/

/-- Row `r` of the first result: the sum of the row's cross-entropy terms. -/
def rowB (c : Dev nD) : (⟨2, ![8192, 1]⟩ : Shape).Idx → EReal :=
  fun y => ∑ k : Fin 128, B (oOf m c) (cwOf m c) (tgOf m c) (y 0) k

/-- Row `r` of the second result: the least distance over the extended table. -/
def rowSigma (c : Dev nD) : (⟨2, ![8192, 1]⟩ : Shape).Idx → EReal :=
  fun y => sigmaKer (P (oOf m c)) (T (cwOf m c)) (cl (tgOf m c)) (y 0)

/-- Where row `p` of point `t`'s block of a result lands: row `1024·t + p`. -/
theorem emb4_eq (t : Fin cfg0.N) (p : Fin 1024) (r : Fin 8192) (hr : r.val = 1024 * t.val + p.val) :
    ((((cfg0.win 4).blk t).view.emb (ix2 p (0 : Fin 1))) : (⟨2, ![8192, 1]⟩ : Shape).Idx) = ix2 r (0 : Fin 1) := by
  obtain ⟨-, -, -, -, -, -, -, -, e0, e1, -⟩ := idx_facts t
  funext a
  apply Fin.ext
  match a with
  | ⟨0, _⟩ => show win0_4.index t (0 : Fin 2) * 1024 + 1 * p.val = r.val; rw [e0, hr]; omega
  | ⟨1, _⟩ => show win0_4.index t (1 : Fin 2) * 1 + 1 * (0 : Fin 1).val = (0 : Fin 1).val; rw [e1]; omega

theorem emb5_eq (t : Fin cfg0.N) (p : Fin 1024) (r : Fin 8192) (hr : r.val = 1024 * t.val + p.val) :
    ((((cfg0.win 5).blk t).view.emb (ix2 p (0 : Fin 1))) : (⟨2, ![8192, 1]⟩ : Shape).Idx) = ix2 r (0 : Fin 1) := by
  obtain ⟨-, -, -, -, -, -, -, -, -, -, e0, e1⟩ := idx_facts t
  funext a
  apply Fin.ext
  match a with
  | ⟨0, _⟩ => show win0_5.index t (0 : Fin 2) * 1024 + 1 * p.val = r.val; rw [e0, hr]; omega
  | ⟨1, _⟩ => show win0_5.index t (1 : Fin 2) * 1 + 1 * (0 : Fin 1).val = (0 : Fin 1).val; rw [e1]; omega

/-- What point `t` writes back of the first result is its block of `rowB`. -/
theorem flushed4_eq (c : Dev nD) (htg : ∀ j : Fin 8192, (tgOf m c (ix1 j)).toNat < 1000) (t : Fin cfg0.N) :
    (dats m 0 c).flushed 4 t = ((cfg0.win 4).blk t).view.read (Elt Ideal) (rowB m c) := by
  show (cfg0.win 4).cut (grid0.coords t) ((dats m 0 c).after 4 t) = _
  rw [after0_4]
  unfold out0_4
  rw [View.canon_unit_zero hz]
  simp only [View.ld_unit_zero (S := S1024x128) hz]
  funext j
  obtain ⟨p, q, rfl⟩ : ∃ (p : Fin 1024) (q : Fin 1), j = ix2 p q := ⟨j 0, j 1, eq_ix2 j⟩
  obtain rfl : q = 0 := Subsingleton.elim _ _
  have hN : cfg0.N = 8 := N_0
  have ht : t.val < 8 := by have := t.isLt; omega
  let r : Fin 8192 := ⟨1024 * t.val + p.val, by have := p.isLt; omega⟩
  have hr : r.val = 1024 * t.val + p.val := rfl
  rw [View.read_apply, emb4_eq t p r hr]
  refine (pay1_apply (iblk m c 0 t) (iblk m c 1 t) p).trans ?_
  show _ = ∑ k : Fin 128, B (oOf m c) (cwOf m c) (tgOf m c) r k
  refine Finset.sum_congr rfl fun k _ => ?_
  rw [iblk0_apply m c t p k r hr, iblk1_apply m c t p k r hr, V_take m c htg r k]
  rfl

/-- What point `t` writes back of the second result is its block of `rowSigma`. -/
theorem flushed5_eq (c : Dev nD) (htg : ∀ j : Fin 8192, (tgOf m c (ix1 j)).toNat < 1000) (t : Fin cfg0.N) :
    (dats m 0 c).flushed 5 t = ((cfg0.win 5).blk t).view.read (Elt Ideal) (rowSigma m c) := by
  show (cfg0.win 5).cut (grid0.coords t) ((dats m 0 c).after 5 t) = _
  rw [after0_5]
  unfold out0_5
  rw [View.canon_unit_zero hz]
  simp only [View.ld_unit_zero (S := S1024x128) hz, View.ld_unit_zero (S := S1x1024) hz]
  funext j
  obtain ⟨p, q, rfl⟩ : ∃ (p : Fin 1024) (q : Fin 1), j = ix2 p q := ⟨j 0, j 1, eq_ix2 j⟩
  obtain rfl : q = 0 := Subsingleton.elim _ _
  have hN : cfg0.N = 8 := N_0
  have ht : t.val < 8 := by have := t.isLt; omega
  let r : Fin 8192 := ⟨1024 * t.val + p.val, by have := p.isLt; omega⟩
  have hr : r.val = 1024 * t.val + p.val := rfl
  rw [View.read_apply, emb5_eq t p r hr]
  refine (pay2_apply (iblk m c 0 t) (iblk m c 2 t) (iblk m c 3 t) p).trans ?_
  show _ = sigmaKer (P (oOf m c)) (T (cwOf m c)) (cl (tgOf m c)) r
  unfold sigmaKer
  refine congrArg (fun f => Finset.univ.fold min topW f) (funext fun cc => ?_)
  have e0 : ∀ k : Fin 128, predOf ((iblk m c 0 t : Vec Ideal S1024x128 .f32) (ix2 p k)) = P (oOf m c) r k := fun k => by
    rw [iblk0_apply m c t p k r hr]; rfl
  simp only [e0, iblk2_apply m c t, iblk3_apply m c t, V_table m c, V_eff m c htg]
  rfl

/-! ## The blocks cover the rows -/

theorem mem_blk4 (t : Fin cfg0.N) (i : (⟨2, ![8192, 1]⟩ : Shape).Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v17_0).slice (win0_4.rect t)).set ↔ _
  rw [View.set_slice_whole, Rect.mem_set_unit]
  exact Iff.rfl

theorem mem_blk5 (t : Fin cfg0.N) (i : (⟨2, ![8192, 1]⟩ : Shape).Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v17_1).slice (win0_5.rect t)).set ↔ _
  rw [View.set_slice_whole, Rect.mem_set_unit]
  exact Iff.rfl

/-- Row `r` lies in the block of point `r / 1024`. -/
theorem cover4 (i : (⟨2, ![8192, 1]⟩ : Shape).Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 8 := N_0
  let t : Fin cfg0.N := ⟨(i 0).val / 1024, by rw [hN]; omega⟩
  have htv : t.val = (i 0).val / 1024 := rfl
  obtain ⟨-, -, -, -, -, -, -, -, e0, e1, -⟩ := idx_facts t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [e0, htv]; omega
  | ⟨1, _⟩ => show win0_4.index t (1 : Fin 2) * 1 ≤ (i 1).val ∧ (i 1).val < win0_4.index t (1 : Fin 2) * 1 + 1; rw [e1]; omega

theorem cover5 (i : (⟨2, ![8192, 1]⟩ : Shape).Idx) :
    ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 8 := N_0
  let t : Fin cfg0.N := ⟨(i 0).val / 1024, by rw [hN]; omega⟩
  have htv : t.val = (i 0).val / 1024 := rfl
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e0, htv]; omega
  | ⟨1, _⟩ => show win0_5.index t (1 : Fin 2) * 1 ≤ (i 1).val ∧ (i 1).val < win0_5.index t (1 : Fin 2) * 1 + 1; rw [e1]; omega

/-! ## The arrays after the region -/

/-- The first result array ends holding the rows' cross-entropy sums. -/
theorem final4 (c : Dev nD) (htg : ∀ j : Fin 8192, (tgOf m c (ix1 j)).toNat < 1000) :
    (dats m 0 c).arrAt 4 cfg0.N = rowB m c :=
  (dats m 0 c).arrAt_eq_of_cover 4 (rowB m c) (fun t _ => flushed4_eq m c htg t) cover4

/-- The second result array ends holding the rows' least distances. -/
theorem final5 (c : Dev nD) (htg : ∀ j : Fin 8192, (tgOf m c (ix1 j)).toNat < 1000) :
    (dats m 0 c).arrAt 5 cfg0.N = rowSigma m c :=
  (dats m 0 c).arrAt_eq_of_cover 5 (rowSigma m c) (fun t _ => flushed5_eq m c htg t) cover5

end Cert.KernelIdeal.Hand

end
-- ==== Proof.KerRun.lean ====
/-
  The kernel program's run, read: after the region, the host sums each of the two result columns over all rows, divides
  the first by the number of (row, bit) pairs and the second by the number of rows, and adds.  With the columns known as
  whole arrays this is the split mean `kerLoss` of the cross-entropy terms and the least distances.
-/
import proofs.«431263_j712964571561_3_alg».proof.Proof.Spec
import proofs.«431263_j712964571561_3_alg».proof.Proof.Consts
import proofs.«431263_j712964571561_3_alg».proof.Proof.Gen.KernelIdeal.Frame
import proofs.«431263_j712964571561_3_alg».proof.Proof.KerArgs
import proofs.«431263_j712964571561_3_alg».proof.Proof.KerArrays
import Idealize.ShloMosaic.Lib.ValueIdx
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

variable (m : (ℓ : Loc nD τ sig) → Buf (Elt Ideal) ℓ) (ρ : Dev nD → PrngReg)

/-- What the host operations after the region leave in the result: the sum over the rows of the first column divided by
    8192·128, plus the sum over the rows of the second divided by 8192. -/
theorem tail_value (c : Dev nD) (htg : ∀ j : Fin 8192, (tgOf m c (ix1 j)).toNat < 1000) :
    (Pipeline.afterTail₀ cfgs (dats m) 0 (V0 m) [hostOps1] c main_v22 : (⟨0, ![]⟩ : Shape).Idx → EReal)
      = fun _ => kerLoss (B (oOf m c) (cwOf m c) (tgOf m c)) (sigmaKer (P (oOf m c)) (T (cwOf m c)) (cl (tgOf m c))) := by
  unfold Pipeline.afterTail₀
  show StableHlo.after hostOps1 _ (Proc.devRef .tc main_v22) = _
  after_results
  have e4 : Pipeline.withArrays (cfgs 0).spec c (V0 m c) (fun w => (dats m 0 c).arrAt w (cfgs 0).N) (Proc.tc.devRef main_v17_0)
      = rowB m c := (Pipeline.withArrays_arr spec0 launch0.win.arr_inj c _ _ 4).trans (final4 m c htg)
  have e5 : Pipeline.withArrays (cfgs 0).spec c (V0 m c) (fun w => (dats m 0 c).arrAt w (cfgs 0).N) (Proc.tc.devRef main_v17_1)
      = rowSigma m c := (Pipeline.withArrays_arr spec0 launch0.win.arr_inj c _ _ 5).trans (final5 m c htg)
  rw [e4, e5]
  funext j
  show Ideal.div (Ideal.hostReduceAdd reducesTo_S8192x1_S_d0_1 (rowB m c) zeroW j) cntW
      + Ideal.div (Ideal.hostReduceAdd reducesTo_S8192x1_S_d0_1 (rowSigma m c) zeroW j) rowsW = _
  rw [Ideal.hostReduceAdd_total _ (fun b => b.elim0), Ideal.hostReduceAdd_total _ (fun b => b.elim0), zeroW_eq, zero_add,
    zero_add, sum_idx2, sum_idx2]
  simp only [Fin.sum_univ_one]
  rfl

/-- Every weakly fair execution of the kernel program ends with the split mean in its result and its arguments unchanged. -/
theorem run (htg : ∀ (c : Dev nD) (j : Fin 8192), (tgOf m c (ix1 j)).toNat < 1000) :
    θ_run defs (onTc (τ := τ) (main (F := Ideal))) ⟨m, fun _ => 0, ρ⟩ fun r => ∀ c : Dev nD,
      r.2.mem ((c : Thread nD τ).loc main_v22)
        = (fun _ => kerLoss (B (oOf m c) (cwOf m c) (tgOf m c)) (sigmaKer (P (oOf m c)) (T (cwOf m c)) (cl (tgOf m c))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v22 (Pipeline.mem_restRefs_of main_v22 (by decide) (by decide))).trans (tail_value m c (htg c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.lean ====
/-
  The kernel computes a collaborative loss — the mean binary cross-entropy of each row's probabilities against the code
  word of the row's class, plus the mean over the rows of the least Hamming distance from the row's hard prediction to the
  code word of any class present in the batch — and so does the reference; they are equal over the extended reals when
  the labels lie in [0, 1000) and the code words are binary.

  The reference takes the least distance over all 8192 rows' code words; the kernel over the 1024 positions of the code
  table extended by zero rows, where a class that labels no row carries 10⁹ in place of its bit count.  For 0/1 vectors
  a distance is a real number in [-256, 256], so such a class never attains the minimum, and the two minima agree
  (`Cert.Spec.sigmaKer_eq_sigmaRef`).  The reference averages `B i k + σ i` over all (row, bit) pairs; the kernel averages
  the cross-entropy terms and the distances separately; the two means agree because the distances are real numbers and
  128 / (8192·128) = 1 / 8192 (`Cert.Spec.kerLoss_eq_refLoss_of_real`), whatever extended reals the cross-entropy terms
  are.  The kernel narrows its 0/1 predictions to bf16 and widens them back, which changes nothing over the extended
  reals: the one rewrite of the idealization.
-/
import proofs.«431263_j712964571561_3_alg».proof.Defs
import proofs.«431263_j712964571561_3_alg».proof.Proof.Gen.Kernel
import proofs.«431263_j712964571561_3_alg».proof.Proof.Gen.Kernel.Frame
import proofs.«431263_j712964571561_3_alg».proof.Proof.Gen.KernelIdeal
import proofs.«431263_j712964571561_3_alg».proof.Proof.Gen.KernelIdeal.Frame
import proofs.«431263_j712964571561_3_alg».proof.Proof.Gen.ReferenceIdeal
import proofs.«431263_j712964571561_3_alg».proof.Proof.Gen.Pre_finite_inputs
import proofs.«431263_j712964571561_3_alg».proof.Proof.Gen.ReferenceIdeal.Run
import proofs.«431263_j712964571561_3_alg».proof.Proof.Gen.ReferenceIdeal.Read
import proofs.«431263_j712964571561_3_alg».proof.Proof.Spec
import proofs.«431263_j712964571561_3_alg».proof.Proof.Algebra
import proofs.«431263_j712964571561_3_alg».proof.Proof.PreFacts
import proofs.«431263_j712964571561_3_alg».proof.Proof.RefValue
import proofs.«431263_j712964571561_3_alg».proof.Proof.KerArgs
import proofs.«431263_j712964571561_3_alg».proof.Proof.KerRun
import Idealize.ShloMosaic.Adequacy
import Idealize.ShloMosaic.Init

noncomputable section

namespace Cert.Proof

open Idealize.ShloMosaic Idealize.SL.Sem Idealize.ShloMosaic.ValueIdx Cert.Spec

/-- The kernel program as printed terminates without a fault and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Narrowing the 0/1 predictions to bf16 and widening them back is the identity over the extended reals. -/
theorem preserves : Cert.preserves_Kernel_KernelIdeal :=
  IdealRules.truncf_extf.statement Cert.KernelIdeal.S1024x128 .f32 .bf16

/-- From memories that agree on the three inputs both programs end with the same loss. -/
theorem algebraic : Cert.algebraic_KernelIdeal_ReferenceIdeal := by
  intro m ρ m' ρ' hpre hagree
  -- what the precondition says of the labels and of the code words
  have htg : ∀ (c : Dev Cert.KernelIdeal.nD) (j : Fin 8192), (Cert.KernelIdeal.Hand.tgOf m c (ix1 j)).toNat < 1000 :=
    fun c j => tg_range _ _ _ (hpre c) j
  have hcw : ∀ (c : Dev Cert.KernelIdeal.nD) (cc : Fin 1000) (k : Fin 128),
      Cert.KernelIdeal.Hand.cwOf m c (ix2 cc k) = 0 ∨ Cert.KernelIdeal.Hand.cwOf m c (ix2 cc k) = 1 :=
    fun c cc k => cw_binary _ _ _ (hpre c) cc k
  refine ⟨_, Cert.KernelIdeal.Hand.run m ρ htg, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v36_eq]
  refine (Cert.ReferenceIdeal.RefValue.ref_value _ _ _ (htg c)).trans ?_
  funext _
  exact (kerLoss_eq_refLoss _ _ _ _ (fun i k => P_binary _ i k) (fun cc k => T_binary _ (hcw c) cc k)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
